-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S4096x8192 : Shape := ⟨2, ![4096, 8192]⟩
abbrev S2048x8192x2 : Shape := ⟨3, ![2048, 8192, 2]⟩
abbrev S64x8192 : Shape := ⟨2, ![64, 8192]⟩
abbrev S_ : Shape := ⟨0, ![]⟩
abbrev S2048x8192x1 : Shape := ⟨3, ![2048, 8192, 1]⟩
abbrev S2048x8192 : Shape := ⟨2, ![2048, 8192]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S2048x8192x2 : S_.BroadcastsInDim S2048x8192x2 (![] : Fin 0 → Fin S2048x8192x2.rank)
  reducesTo_S2048x8192x2_S_d0_1_2 : S2048x8192x2.ReducesTo [0, 1, 2] S_
  slices_S2048x8192x2_S2048x8192x1_0_0_0 : S2048x8192x2.Slices ![0, 0, 0] S2048x8192x1
  shapeCasts_S2048x8192x1_S2048x8192 : S2048x8192x1.ShapeCasts S2048x8192
  slices_S2048x8192x2_S2048x8192x1_0_0_1 : S2048x8192x2.Slices ![0, 0, 1] S2048x8192x1
  reducesTo_S2048x8192_S_d0_1 : S2048x8192.ReducesTo [0, 1] S_

variable [Facts]

def fn_part1 {F : FTy → Type} [FloatOps F] (main_arg2 : IVec S2048x8192x2 32) (main_v15 : IVec S_ 1) (main_v16 : IVec S2048x8192x1 32) : IVec S_ 1 :=
  let main_v17 : IVec S2048x8192 32 := shapeCast S2048x8192 main_v16 shapeCasts_S2048x8192x1_S2048x8192
  let main_v18 : IVec S2048x8192x1 32 := (extractStridedSlice S2048x8192x1 ![0, 0, 1] · slices_S2048x8192x2_S2048x8192x1_0_0_1) main_arg2
  let main_v19 : IVec S2048x8192 32 := shapeCast S2048x8192 main_v18 shapeCasts_S2048x8192x1_S2048x8192
  let main_v20 : IVec S2048x8192 1 := cmpi .ne main_v17 main_v19
  let main_c_5 : IVec S_ 1 := constantI S_ 1 1#1
  let main_v21 : IVec S_ 1 := (fun x v => Host.reduce IntOp.andi x v reducesTo_S2048x8192_S_d0_1 h_S_) main_v20 main_c_5
  let main_v22 : IVec S_ 1 := andi main_v15 main_v21
  main_v22

def fn {F : FTy → Type} [FloatOps F] (main_arg0 : FVec F S256x8192 .f32) (main_arg1 : IVec S4096x8192 32) (main_arg2 : IVec S2048x8192x2 32) (main_arg3 : FVec F S64x8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S64x8192 .f32 := Host.absf main_arg3
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_c_2 : IVec S_ 32 := constantI S_ 32 0#32
  let main_v9 : IVec S2048x8192x2 32 := broadcastInDim S2048x8192x2 ![] bcast_S_S2048x8192x2 main_c_2
  let main_v10 : IVec S2048x8192x2 1 := cmpi .sge main_arg2 main_v9
  let main_c_3 : IVec S_ 32 := constantI S_ 32 4#32
  let main_v11 : IVec S2048x8192x2 32 := broadcastInDim S2048x8192x2 ![] bcast_S_S2048x8192x2 main_c_3
  let main_v12 : IVec S2048x8192x2 1 := cmpi .slt main_arg2 main_v11
  let main_v13 : IVec S2048x8192x2 1 := andi main_v10 main_v12
  let main_c_4 : IVec S_ 1 := constantI S_ 1 1#1
  let main_v14 : IVec S_ 1 := (fun x v => Host.reduce IntOp.andi x v reducesTo_S2048x8192x2_S_d0_1_2 h_S_) main_v13 main_c_4
  let main_v15 : IVec S_ 1 := andi main_v8 main_v14
  let main_v16 : IVec S2048x8192x1 32 := (extractStridedSlice S2048x8192x1 ![0, 0, 0] · slices_S2048x8192x2_S2048x8192x1_0_0_0) main_arg2
  fn_part1 (F := F) main_arg2 main_v15 main_v16
-- ==== Kernel.lean ====
abbrev S256x8192 : Shape := ⟨2, ![256, 8192]⟩
abbrev S4096x8192 : Shape := ⟨2, ![4096, 8192]⟩
abbrev S2048x8192x2 : Shape := ⟨3, ![2048, 8192, 2]⟩
abbrev S64x8192 : Shape := ⟨2, ![64, 8192]⟩
abbrev S2048x8192x1 : Shape := ⟨3, ![2048, 8192, 1]⟩
abbrev S2048x8192 : Shape := ⟨2, ![2048, 8192]⟩
abbrev S512x1024 : Shape := ⟨2, ![512, 1024]⟩
abbrev S256x1024 : Shape := ⟨2, ![256, 1024]⟩
abbrev S8x1024 : Shape := ⟨2, ![8, 1024]⟩
abbrev S256x2x1024 : Shape := ⟨3, ![256, 2, 1024]⟩
abbrev S256x1x1024 : Shape := ⟨3, ![256, 1, 1024]⟩
abbrev S8x1x1024 : Shape := ⟨3, ![8, 1, 1024]⟩
abbrev S8x32x1024 : Shape := ⟨3, ![8, 32, 1024]⟩
abbrev S256x4x1024 : Shape := ⟨3, ![256, 4, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S256x8192, .f32⟩
  | .hbm, ⟨1, _⟩ => ⟨S4096x8192, .i32⟩
  | .hbm, ⟨2, _⟩ => ⟨S2048x8192x2, .i32⟩
  | .hbm, ⟨3, _⟩ => ⟨S64x8192, .f32⟩
  | .hbm, ⟨4, _⟩ => ⟨S2048x8192x1, .i32⟩
  | .hbm, ⟨5, _⟩ => ⟨S2048x8192, .i32⟩
  | .hbm, ⟨6, _⟩ => ⟨S2048x8192x1, .i32⟩
  | .hbm, ⟨7, _⟩ => ⟨S2048x8192, .i32⟩
  | .hbm, ⟨8, _⟩ => ⟨S256x8192, .f32⟩
  | .local _ .vmem, ⟨0, _⟩ => ⟨S256x8192, .f32⟩
  | .local _ .vmem, ⟨1, _⟩ => ⟨S512x1024, .i32⟩
  | .local _ .vmem, ⟨2, _⟩ => ⟨S512x1024, .i32⟩
  | .local _ .vmem, ⟨3, _⟩ => ⟨S256x1024, .i32⟩
  | .local _ .vmem, ⟨4, _⟩ => ⟨S256x1024, .i32⟩
  | .local _ .vmem, ⟨5, _⟩ => ⟨S256x1024, .i32⟩
  | .local _ .vmem, ⟨6, _⟩ => ⟨S256x1024, .i32⟩
  | .local _ .vmem, ⟨7, _⟩ => ⟨S8x1024, .f32⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_27 : BitVec 32 := 0#32
  let v79 : BitVec 1 := Scalar.cmpi .ne v78 c0_i32_27
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2048x8192x2_S2048x8192x1_0_0_0 : S2048x8192x2.Slices ![0, 0, 0] S2048x8192x1
  shapeCasts_S2048x8192x1_S2048x8192 : S2048x8192x1.ShapeCasts S2048x8192
  slices_S2048x8192x2_S2048x8192x1_0_0_1 : S2048x8192x2.Slices ![0, 0, 1] S2048x8192x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S256x2x1024 : S512x1024.ShapeCasts S256x2x1024
  slices_S256x2x1024_o0_0_0_S256x1x1024 : S256x2x1024.Slices ![0, 0, 0] S256x1x1024
  shapeCasts_S256x1x1024_S256x1024 : S256x1x1024.ShapeCasts S256x1024
  slices_S256x2x1024_o0_1_0_S256x1x1024 : S256x2x1024.Slices ![0, 1, 0] S256x1x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  shapeCasts_S8x1x1024_S8x1x1024 : S8x1x1024.ShapeCasts S8x1x1024
  broadcasts_S8x1x1024_S8x32x1024 : S8x1x1024.Broadcasts S8x32x1024
  shapeCasts_S8x32x1024_S256x1024 : S8x32x1024.ShapeCasts S256x1024
  shapeCasts_S256x1024_S256x1x1024 : S256x1024.ShapeCasts S256x1x1024
  concatenates_S256x1x1024_S256x1x1024_S256x1x1024_S256x1x1024_S256x4x1024_d1 : Shape.Concatenates [S256x1x1024, S256x1x1024, S256x1x1024, S256x1x1024] S256x4x1024 1
  shapeCasts_S256x4x1024_S1024x1024 : S256x4x1024.ShapeCasts S1024x1024
  dot_S256x1024_S1024x1024_S256x1024_1_0_0_1_n_n_wf : DotDims.WF S256x1024 S1024x1024 S256x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .f32 = 32 ∨ (Rect.block (s := S256x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .i32 = 32 ∨ (Rect.block (s := S4096x8192) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x8192.size a
  hwx0_2 : ∀ i : grid0.Coords, EltTy.bits .i32 = 32 ∨ (Rect.block (s := S2048x8192) S256x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x8192.size a
  hwx0_3 : ∀ i : grid0.Coords, EltTy.bits .i32 = 32 ∨ (Rect.block (s := S2048x8192) S256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S64x8192.size a
  hwx0_4 : ∀ i : grid0.Coords, EltTy.bits .f32 = 32 ∨ (Rect.block (s := S64x8192) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x8192.size a
  hwx0_5 : ∀ i : grid0.Coords, EltTy.bits .f32 = 32 ∨ (Rect.block (s := S256x8192) S256x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S256x8192 : Shape := ⟨2, ![256, 8192]⟩
abbrev S4096x8192 : Shape := ⟨2, ![4096, 8192]⟩
abbrev S2048x8192x2 : Shape := ⟨3, ![2048, 8192, 2]⟩
abbrev S64x8192 : Shape := ⟨2, ![64, 8192]⟩
abbrev S_ : Shape := ⟨0, ![]⟩
abbrev S2048x2x8192 : Shape := ⟨3, ![2048, 2, 8192]⟩
abbrev S2048x8192x4 : Shape := ⟨3, ![2048, 8192, 4]⟩
abbrev S2048 : Shape := ⟨1, ![2048]⟩
abbrev S2048x1x1 : Shape := ⟨3, ![2048, 1, 1]⟩
abbrev S8192 : Shape := ⟨1, ![8192]⟩
abbrev S1x8192x1 : Shape := ⟨3, ![1, 8192, 1]⟩
abbrev S2048x8192x2x1 : Shape := ⟨4, ![2048, 8192, 2, 1]⟩
abbrev S2048x8192x2x3 : Shape := ⟨4, ![2048, 8192, 2, 3]⟩
abbrev S2048x4x8192 : Shape := ⟨3, ![2048, 4, 8192]⟩
abbrev S8192x8192 : Shape := ⟨2, ![8192, 8192]⟩
abbrev S64x128x8192 : Shape := ⟨3, ![64, 128, 8192]⟩
abbrev S64x1x8192 : Shape := ⟨3, ![64, 1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S4096x8192, .i32⟩
  | .hbm, ⟨2, _⟩ => ⟨S2048x8192x2, .i32⟩
  | .hbm, ⟨3, _⟩ => ⟨S64x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S2048x2x8192, .f32⟩
  | .hbm, ⟨9, _⟩ => ⟨S2048x8192x2, .f32⟩
  | .hbm, ⟨10, _⟩ => ⟨S_, .f32⟩
  | .hbm, ⟨11, _⟩ => ⟨S2048x8192x4, .f32⟩
  | .hbm, ⟨12, _⟩ => ⟨S2048, .i32⟩
  | .hbm, ⟨13, _⟩ => ⟨S2048x1x1, .i32⟩
  | .hbm, ⟨14, _⟩ => ⟨S8192, .i32⟩
  | .hbm, ⟨15, _⟩ => ⟨S1x8192x1, .i32⟩
  | .hbm, ⟨16, _⟩ => ⟨S_, .i32⟩
  | .hbm, ⟨17, _⟩ => ⟨S2048x1x1, .i32⟩
  | .hbm, ⟨18, _⟩ => ⟨S2048x1x1, .i1⟩
  | .hbm, ⟨19, _⟩ => ⟨S_, .i32⟩
  | .hbm, ⟨20, _⟩ => ⟨S2048x1x1, .i32⟩
  | .hbm, ⟨21, _⟩ => ⟨S2048x1x1, .i32⟩
  | .hbm, ⟨22, _⟩ => ⟨S2048x1x1, .i32⟩
  | .hbm, ⟨23, _⟩ => ⟨S_, .i32⟩
  | .hbm, ⟨24, _⟩ => ⟨S1x8192x1, .i32⟩
  | .hbm, ⟨25, _⟩ => ⟨S1x8192x1, .i1⟩
  | .hbm, ⟨26, _⟩ => ⟨S_, .i32⟩
  | .hbm, ⟨27, _⟩ => ⟨S1x8192x1, .i32⟩
  | .hbm, ⟨28, _⟩ => ⟨S1x8192x1, .i32⟩
  | .hbm, ⟨29, _⟩ => ⟨S1x8192x1, .i32⟩
  | .hbm, ⟨30, _⟩ => ⟨S_, .i32⟩
  | .hbm, ⟨31, _⟩ => ⟨S2048x8192x2, .i32⟩
  | .hbm, ⟨32, _⟩ => ⟨S2048x8192x2, .i1⟩
  | .hbm, ⟨33, _⟩ => ⟨S_, .i32⟩
  | .hbm, ⟨34, _⟩ => ⟨S2048x8192x2, .i32⟩
  | .hbm, ⟨35, _⟩ => ⟨S2048x8192x2, .i32⟩
  | .hbm, ⟨36, _⟩ => ⟨S2048x8192x2, .i32⟩
  | .hbm, ⟨37, _⟩ => ⟨S2048x8192x2, .i32⟩
  | .hbm, ⟨38, _⟩ => ⟨S2048x8192x2, .i32⟩
  | .hbm, ⟨39, _⟩ => ⟨S2048x8192x2x1, .i32⟩
  | .hbm, ⟨40, _⟩ => ⟨S2048x8192x2x1, .i32⟩
  | .hbm, ⟨41, _⟩ => ⟨S2048x8192x2x1, .i32⟩
  | .hbm, ⟨42, _⟩ => ⟨S2048x8192x2x3, .i32⟩
  | .hbm, ⟨43, _⟩ => ⟨S2048x8192x4, .f32⟩
  | .hbm, ⟨44, _⟩ => ⟨S2048x4x8192, .f32⟩
  | .hbm, ⟨45, _⟩ => ⟨S8192x8192, .f32⟩
  | .hbm, ⟨46, _⟩ => ⟨S64x128x8192, .f32⟩
  | .hbm, ⟨47, _⟩ => ⟨S64x1x8192, .f32⟩
  | .hbm, ⟨48, _⟩ => ⟨S64x128x8192, .f32⟩
  | .hbm, ⟨49, _⟩ => ⟨S64x128x8192, .f32⟩
  | .hbm, ⟨50, _⟩ => ⟨S8192x8192, .f32⟩
  | .hbm, ⟨51, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  shapeCasts_S4096x8192_S2048x2x8192 : S4096x8192.ShapeCasts S2048x2x8192
  transposes_S2048x2x8192_S2048x8192x2_0_2_1 : S2048x2x8192.Transposes [0, 2, 1] S2048x8192x2
  bcast_S_S2048x8192x4 : S_.BroadcastsInDim S2048x8192x4 (![] : Fin 0 → Fin S2048x8192x4.rank)
  bcast_S2048_S2048x1x1_0 : S2048.BroadcastsInDim S2048x1x1 (![0] : Fin 1 → Fin S2048x1x1.rank)
  bcast_S8192_S1x8192x1_1 : S8192.BroadcastsInDim S1x8192x1 (![1] : Fin 1 → Fin S1x8192x1.rank)
  bcast_S_S2048x1x1 : S_.BroadcastsInDim S2048x1x1 (![] : Fin 0 → Fin S2048x1x1.rank)
  bcast_S_S1x8192x1 : S_.BroadcastsInDim S1x8192x1 (![] : Fin 0 → Fin S1x8192x1.rank)
  bcast_S_S2048x8192x2 : S_.BroadcastsInDim S2048x8192x2 (![] : Fin 0 → Fin S2048x8192x2.rank)
  bcast_S2048x1x1_S2048x8192x2_0_1_2 : S2048x1x1.BroadcastsInDim S2048x8192x2 (![0, 1, 2] : Fin 3 → Fin S2048x8192x2.rank)
  bcast_S1x8192x1_S2048x8192x2_0_1_2 : S1x8192x1.BroadcastsInDim S2048x8192x2 (![0, 1, 2] : Fin 3 → Fin S2048x8192x2.rank)
  bcast_S2048x8192x2_S2048x8192x2x1_0_1_2 : S2048x8192x2.BroadcastsInDim S2048x8192x2x1 (![0, 1, 2] : Fin 3 → Fin S2048x8192x2x1.rank)
  concatenates_S2048x8192x2x1_S2048x8192x2x1_S2048x8192x2x1_S2048x8192x2x3_d3 : Shape.Concatenates [S2048x8192x2x1, S2048x8192x2x1, S2048x8192x2x1] S2048x8192x2x3 3
  transposes_S2048x8192x4_S2048x4x8192_0_2_1 : S2048x8192x4.Transposes [0, 2, 1] S2048x4x8192
  shapeCasts_S2048x4x8192_S8192x8192 : S2048x4x8192.ShapeCasts S8192x8192
  shapeCasts_S8192x8192_S64x128x8192 : S8192x8192.ShapeCasts S64x128x8192
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  scatter_S2048x8192x4_S2048x8192x2x3_S2048x8192x2_n_012_012_3_wf : ScatterDims.WF S2048x8192x4 S2048x8192x2x3 S2048x8192x2 [] [0, 1, 2] [0, 1, 2] 3
  dot_S256x8192_S8192x8192_S256x8192_1_0_0_1_n_n_wf : DotDims.WF S256x8192 S8192x8192 S256x8192 [1] [0] [0] [1] [] []

variable [Facts₀]

def scatter_S2048x8192x4_S2048x8192x2x3_S2048x8192x2_n_012_012_3 : ScatterDims S2048x8192x4 S2048x8192x2x3 S2048x8192x2 where
  updateWindowDims := []
  insertedWindowDims := [0, 1, 2]
  scatterDimsToOperandDims := [0, 1, 2]
  indexVectorDim := 3
  wf := scatter_S2048x8192x4_S2048x8192x2x3_S2048x8192x2_n_012_012_3_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.KernelPieces.lean ====
/-
  What one grid step leaves behind, as a value. The kernel walks a grid of 8 column tiles by 8 row tiles;
  at a step it adds, into a 256×1024 accumulator, the product of a slab of activations with the step's
  dense weight tile. A column tile's first step zeroes the accumulator first; its last step also copies the
  accumulator to the output block. Whichever of the three it is, what the step stores is the same function
  `stepOf` of the blocks it loaded and of the accumulator it found (the zero block at a first step).
-/
import proofs.«405010_j9294309229010_1_alg».proof.Proof.Gen.KernelIdeal.Frame
import Idealize.ShloMosaic.Lib.Pipeline.Value
import Idealize.ShloMosaic.Lib.Tactic

set_option maxRecDepth 16384

noncomputable section

namespace Cert.KernelIdeal.RefValue

open Cert.KernelIdeal Cert.KernelIdeal.Gen Idealize.ShloMosaic Idealize.ShloMosaic.TcCoe Idealize.ShloMosaic.Tactic Idealize.SL.Sem

variable {F : FTy → Type} [FloatOps F]

/-- The zero offsets of a load or store of a whole buffer. -/
theorem hz2 : (![0, 0] : Fin 2 → Nat) = fun _ => 0 := by
  funext a; match a with | ⟨0, _⟩ => rfl | ⟨1, _⟩ => rfl

/-- What one grid step stores into the accumulator: the accumulator's contents `acc` plus the product of the
    step's activation slab (columns `1024·k …` of the resident activations) with the tile's dense weights. -/
abbrev stepOf (i : grid0.Coords) (x0 : Vec F S256x8192 .f32) (x1 : Vec F S512x1024 .i32) (x2 x3 : Vec F S256x1024 .i32)
    (x4 : Vec F S8x1024 .f32) (acc : Vec F S256x1024 .f32) : Vec F S256x1024 .f32 :=
  k0_pay11 (k0_pay2 (View.ld x0 (Rect.unit (k0_off1 i) S256x1024.size (k0_off1_inb i)))) (k0_pay4 x2) (k0_pay5 x3)
    (k0_pay7 x1 x4) (k0_pay8 x1 x4) (k0_pay9 x1 x2 x3 x4) (k0_pay10 x2) acc

/-- A middle step leaves the accumulator at `stepOf` of what it found. -/
theorem soutB (c : Dev nD) (i : grid0.Coords) (arg2 : Memref sig .tc .vmem S256x8192 .f32) (harg2 : arg2.IsWhole) (arg3 : Memref sig .tc .vmem S512x1024 .i32) (harg3 : arg3.IsWhole) (arg4 : Memref sig .tc .vmem S256x1024 .i32) (harg4 : arg4.IsWhole) (arg5 : Memref sig .tc .vmem S256x1024 .i32) (harg5 : arg5.IsWhole) (arg6 : Memref sig .tc .vmem S8x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : ¬cond0_1 i)
    (x0 : Vec F S256x8192 .f32) (x1 : Vec F S512x1024 .i32) (x2 : Vec F S256x1024 .i32) (x3 : Vec F S256x1024 .i32) (x4 : Vec F S8x1024 .f32) (xs0 : Vec F S256x1024 .f32) :
    sout0_B_0 c i arg2 harg2 arg3 harg3 arg4 harg4 arg5 harg5 arg6 harg6 arg7 harg7 arg8 harg8 hc0 hc1 x0 x1 x2 x3 x4 xs0 = stepOf i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S256x1024) hz2, View.ld_unit_zero (S := S512x1024) hz2, View.ld_unit_zero (S := S8x1024) hz2, View.readCov_unit_zero (S := S256x1024) _ hz2]
  rfl

/-- So does a column tile's last step; -/
theorem soutC (c : Dev nD) (i : grid0.Coords) (arg2 : Memref sig .tc .vmem S256x8192 .f32) (harg2 : arg2.IsWhole) (arg3 : Memref sig .tc .vmem S512x1024 .i32) (harg3 : arg3.IsWhole) (arg4 : Memref sig .tc .vmem S256x1024 .i32) (harg4 : arg4.IsWhole) (arg5 : Memref sig .tc .vmem S256x1024 .i32) (harg5 : arg5.IsWhole) (arg6 : Memref sig .tc .vmem S8x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x8192 .f32) (x1 : Vec F S512x1024 .i32) (x2 : Vec F S256x1024 .i32) (x3 : Vec F S256x1024 .i32) (x4 : Vec F S8x1024 .f32) (xs0 : Vec F S256x1024 .f32) :
    sout0_C_0 c i arg2 harg2 arg3 harg3 arg4 harg4 arg5 harg5 arg6 harg6 arg7 harg7 arg8 harg8 hc0 hc1 x0 x1 x2 x3 x4 xs0 = stepOf i x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x1024) hz2, View.ld_unit_zero (S := S512x1024) hz2, View.ld_unit_zero (S := S8x1024) hz2, View.readCov_unit_zero (S := S256x1024) _ hz2]
  rfl

/-- and what it copies to the output block is that same value. -/
theorem outC (c : Dev nD) (i : grid0.Coords) (arg2 : Memref sig .tc .vmem S256x8192 .f32) (harg2 : arg2.IsWhole) (arg3 : Memref sig .tc .vmem S512x1024 .i32) (harg3 : arg3.IsWhole) (arg4 : Memref sig .tc .vmem S256x1024 .i32) (harg4 : arg4.IsWhole) (arg5 : Memref sig .tc .vmem S256x1024 .i32) (harg5 : arg5.IsWhole) (arg6 : Memref sig .tc .vmem S8x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x8192 .f32) (x1 : Vec F S512x1024 .i32) (x2 : Vec F S256x1024 .i32) (x3 : Vec F S256x1024 .i32) (x4 : Vec F S8x1024 .f32) (xs0 : Vec F S256x1024 .f32) :
    out0_C_5 c i arg2 harg2 arg3 harg3 arg4 harg4 arg5 harg5 arg6 harg6 arg7 harg7 arg8 harg8 hc0 hc1 x0 x1 x2 x3 x4 xs0 = stepOf i x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x1024) hz2, View.ld_unit_zero (S := S512x1024) hz2, View.ld_unit_zero (S := S8x1024) hz2, View.readCov_unit_zero (S := S256x1024) _ hz2]
  rfl

/-- A column tile's first step leaves `stepOf` of the zero block it has just stored. -/
theorem soutA (c : Dev nD) (i : grid0.Coords) (arg2 : Memref sig .tc .vmem S256x8192 .f32) (harg2 : arg2.IsWhole) (arg3 : Memref sig .tc .vmem S512x1024 .i32) (harg3 : arg3.IsWhole) (arg4 : Memref sig .tc .vmem S256x1024 .i32) (harg4 : arg4.IsWhole) (arg5 : Memref sig .tc .vmem S256x1024 .i32) (harg5 : arg5.IsWhole) (arg6 : Memref sig .tc .vmem S8x1024 .f32) (harg6 : arg6.IsWhole) (arg7 : Memref sig .tc .vmem S256x1024 .f32) (harg7 : arg7.IsWhole) (arg8 : Memref sig .tc .vmem S256x1024 .f32) (harg8 : arg8.IsWhole) (hc0 : cond0_0 i) (hc1 : ¬cond0_1 i)
    (x0 : Vec F S256x8192 .f32) (x1 : Vec F S512x1024 .i32) (x2 : Vec F S256x1024 .i32) (x3 : Vec F S256x1024 .i32) (x4 : Vec F S8x1024 .f32) :
    sout0_A_0 c i arg2 harg2 arg3 harg3 arg4 harg4 arg5 harg5 arg6 harg6 arg7 harg7 arg8 harg8 hc0 hc1 x0 x1 x2 x3 x4 = stepOf i x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x1024) hz2]
  simp only [View.readAt_eq_ld, harg2.read_unread, harg3.read_unread, harg4.read_unread, harg5.read_unread, harg6.read_unread, harg8.read_unread, View.ld_unit_zero (S := S256x1024) hz2, View.ld_unit_zero (S := S512x1024) hz2, View.ld_unit_zero (S := S8x1024) hz2, View.readCov_unit_zero (S := S256x1024) _ hz2]
  rfl

end Cert.KernelIdeal.RefValue

end
-- ==== Proof.KernelBlocks.lean ====
/-
  The blocks a grid step loads, read at an entry of the argument arrays. Point `t` of the 64 is column tile
  `t / 8`, row tile `t % 8`. Its quantised block is rows `512·(t%8) …`, columns `1024·(t/8) …` of `Q`; its
  two position blocks are rows `256·(t%8) …` of the two halves of `I` (the host splits `I`'s last axis
  before the call); its scales are rows `8·(t%8) …` of `S`; the activations are resident whole, and the
  step's slab is their columns `1024·(t%8) …`.
-/
import proofs.«405010_j9294309229010_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid's coordinates and every window's block index at point `t`, decided over the 64 points. -/
theorem idx_facts : ∀ t : Fin cfg0.N,
    (grid0.coords t (0 : Fin 2)).val = t.val / 8 ∧ (grid0.coords t (1 : Fin 2)).val = t.val % 8
    ∧ win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = t.val % 8 ∧ win0_4.index t (1 : Fin 2) = t.val / 8
    ∧ win0_5.index t (0 : Fin 2) = 0 ∧ win0_5.index t (1 : Fin 2) = t.val / 8 :=
  (by decide +kernel : ∀ t : Fin grid0.N, _)

/-- The input blocks at a point, under their literal types. -/
abbrev xA (c : Dev nD) (t : Fin cfg0.N) : Vec F S256x8192 .f32 := iblk m c 0 t
abbrev xQ (c : Dev nD) (t : Fin cfg0.N) : Vec F S512x1024 .i32 := iblk m c 1 t
abbrev xI0 (c : Dev nD) (t : Fin cfg0.N) : Vec F S256x1024 .i32 := iblk m c 2 t
abbrev xI1 (c : Dev nD) (t : Fin cfg0.N) : Vec F S256x1024 .i32 := iblk m c 3 t
abbrev xS (c : Dev nD) (t : Fin cfg0.N) : Vec F S8x1024 .f32 := iblk m c 4 t

/-- The activations' window is the whole array. -/
theorem xA_apply (c : Dev nD) (t : Fin cfg0.N) (y : S256x8192.Idx) :
    xA m c t y = m ((c : Thread nD τ).loc main_arg0) y := by
  obtain ⟨-, -, e0, e1, -⟩ := idx_facts t
  unfold xA iblk
  rw [View.read_apply]
  show V m c main_arg0 _ = _
  rw [V_main_arg0]
  congr 1
  funext a; apply Fin.ext
  match a with
  | ⟨0, _⟩ => show win0_0.index t (0 : Fin 2) * 256 + 1 * (y 0).val = (y 0).val; omega
  | ⟨1, _⟩ => show win0_0.index t (1 : Fin 2) * 8192 + 1 * (y 1).val = (y 1).val; omega

/-- The quantised block. -/
theorem xQ_apply (c : Dev nD) (t : Fin cfg0.N) (a : Fin 512) (cc : Fin 1024) :
    xQ m c t (ix2 a cc) = m ((c : Thread nD τ).loc main_arg1)
      (ix2 (⟨t.val % 8 * 512 + a.val, by omega⟩ : Fin 4096) (⟨t.val / 8 * 1024 + cc.val, by have := t.isLt; have : cfg0.N = 64 := N_0; omega⟩ : Fin 8192)) := by
  obtain ⟨-, -, -, -, e0, e1, -⟩ := idx_facts t
  unfold xQ iblk
  rw [View.read_apply]
  show V m c main_arg1 _ = _
  rw [V_main_arg1]
  congr 1
  funext b; apply Fin.ext
  match b with
  | ⟨0, _⟩ => show win0_1.index t (0 : Fin 2) * 512 + 1 * a.val = t.val % 8 * 512 + a.val; omega
  | ⟨1, _⟩ => show win0_1.index t (1 : Fin 2) * 1024 + 1 * cc.val = t.val / 8 * 1024 + cc.val; omega

/-- The scales' block. -/
theorem xS_apply (c : Dev nD) (t : Fin cfg0.N) (e : Fin 8) (cc : Fin 1024) :
    xS m c t (ix2 e cc) = m ((c : Thread nD τ).loc main_arg3)
      (ix2 (⟨t.val % 8 * 8 + e.val, by omega⟩ : Fin 64) (⟨t.val / 8 * 1024 + cc.val, by have := t.isLt; have : cfg0.N = 64 := N_0; omega⟩ : Fin 8192)) := by
  obtain ⟨-, -, -, -, -, -, -, -, -, -, e0, e1, -⟩ := idx_facts t
  unfold xS iblk
  rw [View.read_apply]
  show V m c main_arg3 _ = _
  rw [V_main_arg3]
  congr 1
  funext b; apply Fin.ext
  match b with
  | ⟨0, _⟩ => show win0_4.index t (0 : Fin 2) * 8 + 1 * e.val = t.val % 8 * 8 + e.val; omega
  | ⟨1, _⟩ => show win0_4.index t (1 : Fin 2) * 1024 + 1 * cc.val = t.val / 8 * 1024 + cc.val; omega

/-- The first half of the positions as the region finds it: the host's slice `[:, :, 0:1]` reshaped. -/
theorem V_main_v1 (c : Dev nD) :
    (V m c main_v1 : S2048x8192.Idx → BitVec 32)
      = shapeCast S2048x8192 (extractStridedSlice S2048x8192x1 ![0, 0, 0] (m ((c : Thread nD τ).loc main_arg2)) slices_S2048x8192x2_S2048x8192x1_0_0_0) shapeCasts_S2048x8192x1_S2048x8192 := by
  dsimp only [V, hostOps0]; after_results; rfl

/-- The second half: the slice `[:, :, 1:2]` reshaped. -/
theorem V_main_v3 (c : Dev nD) :
    (V m c main_v3 : S2048x8192.Idx → BitVec 32)
      = shapeCast S2048x8192 (extractStridedSlice S2048x8192x1 ![0, 0, 1] (m ((c : Thread nD τ).loc main_arg2)) slices_S2048x8192x2_S2048x8192x1_0_0_1) shapeCasts_S2048x8192x1_S2048x8192 := by
  dsimp only [V, hostOps0]; after_results; rfl

/-- The first position block. -/
theorem xI0_apply (c : Dev nD) (t : Fin cfg0.N) (g : Fin 256) (cc : Fin 1024) :
    xI0 m c t (ix2 g cc) = m ((c : Thread nD τ).loc main_arg2)
      (ix3 (⟨t.val % 8 * 256 + g.val, by omega⟩ : Fin 2048) (⟨t.val / 8 * 1024 + cc.val, by have := t.isLt; have : cfg0.N = 64 := N_0; omega⟩ : Fin 8192) (0 : Fin 2)) := by
  obtain ⟨-, -, -, -, -, -, e0, e1, -⟩ := idx_facts t
  have hN : t.val < 64 := lt_of_lt_of_eq t.isLt (show cfg0.N = 64 from N_0)
  unfold xI0 iblk
  rw [View.read_apply]
  show V m c main_v1 _ = _
  rw [V_main_v1]
  rw [shapeCast_apply _ _ _ (ix3 (⟨t.val % 8 * 256 + g.val, by omega⟩ : Fin 2048) (⟨t.val / 8 * 1024 + cc.val, by omega⟩ : Fin 8192) (0 : Fin 1))
    (by rewrite [Shape.rowMajor_val_three, Shape.rowMajor_val_two]
        show ((t.val % 8 * 256 + g.val) * 8192 + (t.val / 8 * 1024 + cc.val)) * 1 + 0 = (win0_2.index t (0 : Fin 2) * 256 + 1 * g.val) * 8192 + (win0_2.index t (1 : Fin 2) * 1024 + 1 * cc.val)
        rw [e0, e1]; omega)]
  exact extractStridedSlice_apply _ _ _ _ _ (fun a => match a with
    | ⟨0, _⟩ => by show t.val % 8 * 256 + g.val = 0 + (t.val % 8 * 256 + g.val); omega
    | ⟨1, _⟩ => by show t.val / 8 * 1024 + cc.val = 0 + (t.val / 8 * 1024 + cc.val); omega
    | ⟨2, _⟩ => by show 0 = 0 + 0; rfl)

/-- The second position block. -/
theorem xI1_apply (c : Dev nD) (t : Fin cfg0.N) (g : Fin 256) (cc : Fin 1024) :
    xI1 m c t (ix2 g cc) = m ((c : Thread nD τ).loc main_arg2)
      (ix3 (⟨t.val % 8 * 256 + g.val, by omega⟩ : Fin 2048) (⟨t.val / 8 * 1024 + cc.val, by have := t.isLt; have : cfg0.N = 64 := N_0; omega⟩ : Fin 8192) (1 : Fin 2)) := by
  obtain ⟨-, -, -, -, -, -, -, -, e0, e1, -⟩ := idx_facts t
  have hN : t.val < 64 := lt_of_lt_of_eq t.isLt (show cfg0.N = 64 from N_0)
  unfold xI1 iblk
  rw [View.read_apply]
  show V m c main_v3 _ = _
  rw [V_main_v3]
  rw [shapeCast_apply _ _ _ (ix3 (⟨t.val % 8 * 256 + g.val, by omega⟩ : Fin 2048) (⟨t.val / 8 * 1024 + cc.val, by omega⟩ : Fin 8192) (0 : Fin 1))
    (by rewrite [Shape.rowMajor_val_three, Shape.rowMajor_val_two]
        show ((t.val % 8 * 256 + g.val) * 8192 + (t.val / 8 * 1024 + cc.val)) * 1 + 0 = (win0_3.index t (0 : Fin 2) * 256 + 1 * g.val) * 8192 + (win0_3.index t (1 : Fin 2) * 1024 + 1 * cc.val)
        rw [e0, e1]; omega)]
  exact extractStridedSlice_apply _ _ _ _ _ (fun a => match a with
    | ⟨0, _⟩ => by show t.val % 8 * 256 + g.val = 0 + (t.val % 8 * 256 + g.val); omega
    | ⟨1, _⟩ => by show t.val / 8 * 1024 + cc.val = 0 + (t.val / 8 * 1024 + cc.val); omega
    | ⟨2, _⟩ => by show 1 = 1 + 0; rfl)

/-- The step's activation slab: columns `1024·(t%8) + q` of the resident activations. -/
theorem slab_apply (c : Dev nD) (t : Fin cfg0.N) (r : Fin 256) (q : Fin 1024) :
    View.ld (xA m c t) (Rect.unit (k0_off1 (grid0.coords t)) S256x1024.size (k0_off1_inb (grid0.coords t))) (ix2 r q)
      = m ((c : Thread nD τ).loc main_arg0) (ix2 r (⟨t.val % 8 * 1024 + q.val, by omega⟩ : Fin 8192)) := by
  obtain ⟨-, e1, -⟩ := idx_facts t
  show xA m c t _ = _
  rw [xA_apply]
  congr 1
  funext a; apply Fin.ext
  match a with
  | ⟨0, _⟩ => show k0_off1 (grid0.coords t) 0 + 1 * r.val = r.val; rw [k0_off1_eq]; show 0 + 1 * r.val = r.val; omega
  | ⟨1, _⟩ => show k0_off1 (grid0.coords t) 1 + 1 * q.val = t.val % 8 * 1024 + q.val; rw [k0_off1_eq]; show 1024 * (grid0.coords t 1).val + 1 * q.val = _; rw [e1]; omega

end Cert.KernelIdeal.RefValue

end
-- ==== Proof.Spec.lean ====
/-
  The mathematics both programs compute, stated once over the four argument arrays.

  The weight matrix is stored 2:4-sparse: along the reduction axis every group of four rows keeps two
  entries per column. Group `g` (rows `4g … 4g+3`) of column `n` has two quantised values, rows `2g` and
  `2g+1` of `Q`, two positions `I (g, n, 0)`, `I (g, n, 1)` in `{0,1,2,3}`, and one scale, row `g / 32` of
  `S` (a scale covers 128 rows = 32 groups). Row `4g + j` of the dense matrix holds, in column `n`, the
  dequantised value `(q - 8) · s` of whichever kept entry names position `j`, and zero if neither does.
  The result is the activation matrix times this dense matrix.
-/
import Idealize.ShloMosaic.PureOps.Ideal
import Idealize.ShloMosaic.Lib.ValueIdx

noncomputable section

open scoped BigOperators

namespace Cert.Sparse24

open Idealize.ShloMosaic Idealize.ShloMosaic.ValueIdx

/-- Activations, quantised values, kept positions, scales. -/
abbrev SA : Shape := ⟨2, ![256, 8192]⟩
abbrev SQ : Shape := ⟨2, ![4096, 8192]⟩
abbrev SI : Shape := ⟨3, ![2048, 8192, 2]⟩
abbrev SS : Shape := ⟨2, ![64, 8192]⟩

/-- A quantised word dequantised before scaling: the signed integer minus the zero point 8. -/
def deq (q : BitVec 32) : EReal :=
  FloatOps.sitofp (F := Ideal) .f32 q - Ideal.ofBits .f32 0x41000000#32

/-- Position `j` of one group of four in one column: the two kept entries `(q0, i0)`, `(q1, i1)` with the
    group's scale `s`; each entry contributes its scaled value where its position word is `j`. -/
def slotOf (q0 q1 i0 i1 : BitVec 32) (s : EReal) (j : ℕ) : EReal :=
  (if i0 = BitVec.ofNat 32 j then deq q0 * s else 0) + (if i1 = BitVec.ofNat 32 j then deq q1 * s else 0)

/-- The dense weight at row `k`, column `n`. -/
def W (Q : SQ.Idx → BitVec 32) (I : SI.Idx → BitVec 32) (S : SS.Idx → EReal) (k n : Fin 8192) : EReal :=
  slotOf (Q (ix2 (⟨2 * (k.val / 4), by omega⟩ : Fin 4096) n)) (Q (ix2 (⟨2 * (k.val / 4) + 1, by omega⟩ : Fin 4096) n))
    (I (ix3 (⟨k.val / 4, by omega⟩ : Fin 2048) n (0 : Fin 2))) (I (ix3 (⟨k.val / 4, by omega⟩ : Fin 2048) n (1 : Fin 2)))
    (S (ix2 (⟨k.val / 4 / 32, by omega⟩ : Fin 64) n)) (k.val % 4)

/-- The result: activations times the dense weight. -/
def G (A : SA.Idx → EReal) (Q : SQ.Idx → BitVec 32) (I : SI.Idx → BitVec 32) (S : SS.Idx → EReal) : SA.Idx → EReal :=
  fun i => ∑ k : Fin 8192, A (ix2 (i 0) k) * W Q I S k (i 1)

/-- The domain of the position array: every position is one of the four of its group, and the two kept
    entries of a group sit at different positions. -/
def Admissible (I : SI.Idx → BitVec 32) : Prop :=
  (∀ i, 0 ≤ (I i).toInt ∧ (I i).toInt < 4)
    ∧ ∀ (g : Fin 2048) (n : Fin 8192), I (ix3 g n (0 : Fin 2)) ≠ I (ix3 g n (1 : Fin 2))

/-- With the two positions different, a slot is "write the kept values into a zero group, then scale":
    the second entry where it names `j`, else the first where it does, else zero — times the scale. -/
theorem slotOf_eq_scatter_mul (q0 q1 i0 i1 : BitVec 32) (s : EReal) (j : ℕ) (h : i0 ≠ i1) :
    slotOf q0 q1 i0 i1 s j
      = (if i1 = BitVec.ofNat 32 j then deq q1 else if i0 = BitVec.ofNat 32 j then deq q0 else 0) * s := by
  unfold slotOf
  by_cases h1 : i1 = BitVec.ofNat 32 j
  · have h0 : ¬ i0 = BitVec.ofNat 32 j := fun h0 => h (h0.trans h1.symm)
    rw [if_pos h1, if_neg h0, if_pos h1, zero_add]
  · by_cases h0 : i0 = BitVec.ofNat 32 j
    · rw [if_pos h0, if_neg h1, if_neg h1, if_pos h0, add_zero]
    · rw [if_neg h0, if_neg h1, if_neg h1, if_neg h0, add_zero, zero_mul]

/-- A sum over the 8192 rows is the sum over the eight row tiles of the sums inside each tile. -/
theorem sum_tiles (f : Fin 8192 → EReal) :
    ∑ k : Fin 8192, f k
      = ∑ b : Fin 8, ∑ q : Fin 1024, f ⟨b.val * 1024 + q.val, by have := b.isLt; have := q.isLt; omega⟩ := by
  rw [← Fintype.sum_prod_type' (f := fun (b : Fin 8) (q : Fin 1024) => f ⟨b.val * 1024 + q.val, by have := b.isLt; have := q.isLt; omega⟩)]
  refine (Fintype.sum_equiv (finProdFinEquiv (m := 8) (n := 1024)) _ _ (fun p => ?_)).symm
  congr 1
  apply Fin.ext
  show p.1.val * 1024 + p.2.val = p.2.val + 1024 * p.1.val
  omega

end Cert.Sparse24

end
-- ==== Proof.KernelTile.lean ====
/-
  One grid step's arithmetic read at an entry. A step holds a 256×1024 slab of activations, the tile's
  512×1024 quantised values, its two 256×1024 position blocks and its 8×1024 scales; it rebuilds the
  tile's 1024×1024 dense weights (row `4g' + j` from group `g'`) and adds the slab times those weights to
  the accumulator. Entry `(r, c)` of what it stores is the accumulator's entry plus the sum over the
  tile's rows `q` of `a (r, q) · w (q, c)`.
-/
import proofs.«405010_j9294309229010_1_alg».proof.Proof.Gen.KernelIdeal.Skeleton
import proofs.«405010_j9294309229010_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.RefValue

open Cert.KernelIdeal Cert.KernelIdeal.Gen Idealize.ShloMosaic Idealize.ShloMosaic.ValueIdx Cert.Sparse24

/-- The tile's dense weight at its row `q`, column `c`, from the step's loaded blocks. -/
def tileW (v8 : Vec Ideal S512x1024 .i32) (v17 v19 : Vec Ideal S256x1024 .i32) (v21 : Vec Ideal S8x1024 .f32)
    (q c : Fin 1024) : EReal :=
  slotOf (v8 (ix2 (⟨2 * (q.val / 4), by omega⟩ : Fin 512) c)) (v8 (ix2 (⟨2 * (q.val / 4) + 1, by omega⟩ : Fin 512) c))
    (v17 (ix2 (⟨q.val / 4, by omega⟩ : Fin 256) c)) (v19 (ix2 (⟨q.val / 4, by omega⟩ : Fin 256) c))
    (v21 (ix2 (⟨q.val / 4 / 32, by omega⟩ : Fin 8) c)) (q.val % 4)

/-- The dequantised values, viewed as 256 groups of two rows: entry (g, t, c) is row 2g + t of the block. -/
theorem pay3_apply (v8 : Vec Ideal S512x1024 .i32) (g : Fin 256) (t : Fin 2) (c : Fin 1024) (k : Fin 512)
    (hk : k.val = 2 * g.val + t.val) :
    k0_pay3 (F := Ideal) v8 (ix3 g t c) = deq (v8 (ix2 k c)) := by
  unfold k0_pay3
  refine (shapeCast_apply _ _ (ix3 g t c) (ix2 k c) ?_).trans ?_
  · rw [Shape.rowMajor_val_two, Shape.rowMajor_val_three]
    show k.val * 1024 + c.val = (g.val * 2 + t.val) * 1024 + c.val
    omega
  · rfl

/-- The scales spread over the groups: group g reads scale row g / 32. -/
theorem pay6_apply (v21 : Vec Ideal S8x1024 .f32) (g : Fin 256) (c : Fin 1024) :
    k0_pay6 (F := Ideal) v21 (ix2 g c) = v21 (ix2 (⟨g.val / 32, by omega⟩ : Fin 8) c) := by
  unfold k0_pay6
  refine (shapeCast_apply _ _ (ix2 g c) (ix3 (⟨g.val / 32, by omega⟩ : Fin 8) (⟨g.val % 32, by omega⟩ : Fin 32) c) ?_).trans ?_
  · rw [Shape.rowMajor_val_two, Shape.rowMajor_val_three]
    show (g.val / 32 * 32 + g.val % 32) * 1024 + c.val = g.val * 1024 + c.val
    omega
  refine (broadcastTo_apply _ _ _ (ix3 (⟨g.val / 32, by omega⟩ : Fin 8) (0 : Fin 1) c) ?_).trans ?_
  · intro a
    match a with
    | ⟨0, _⟩ => rfl
    | ⟨1, _⟩ => rfl
    | ⟨2, _⟩ => rfl
  rw [shapeCast_self]
  refine (shapeCast_apply _ _ _ (ix2 (⟨g.val / 32, by omega⟩ : Fin 8) c) ?_).trans rfl
  rw [Shape.rowMajor_val_two, Shape.rowMajor_val_three]
  show g.val / 32 * 1024 + c.val = (g.val / 32 * 1 + 0) * 1024 + c.val
  omega

/-- The even rows of the dequantised block, scaled: group g's first kept entry. -/
theorem pay7_apply (v8 : Vec Ideal S512x1024 .i32) (v21 : Vec Ideal S8x1024 .f32) (g : Fin 256) (c : Fin 1024) :
    k0_pay7 (F := Ideal) v8 v21 (ix2 g c)
      = deq (v8 (ix2 (⟨2 * g.val, by omega⟩ : Fin 512) c)) * v21 (ix2 (⟨g.val / 32, by omega⟩ : Fin 8) c) := by
  unfold k0_pay7
  refine (mulf_apply _ _ _).trans ?_
  rw [pay6_apply]
  refine congrArg (· * _) ?_
  refine (shapeCast_apply _ _ (ix2 g c) (ix3 g (0 : Fin 1) c) ?_).trans ?_
  · rw [Shape.rowMajor_val_two, Shape.rowMajor_val_three]
    show (g.val * 1 + 0) * 1024 + c.val = g.val * 1024 + c.val
    omega
  refine (extractStridedSlice_apply _ _ _ _ (ix3 g (0 : Fin 2) c) ?_).trans ?_
  · intro a
    match a with
    | ⟨0, _⟩ => exact (Nat.zero_add _).symm
    | ⟨1, _⟩ => rfl
    | ⟨2, _⟩ => exact (Nat.zero_add _).symm
  exact pay3_apply v8 g 0 c _ rfl

/-- The odd rows of the dequantised block, scaled: group g's second kept entry. -/
theorem pay8_apply (v8 : Vec Ideal S512x1024 .i32) (v21 : Vec Ideal S8x1024 .f32) (g : Fin 256) (c : Fin 1024) :
    k0_pay8 (F := Ideal) v8 v21 (ix2 g c)
      = deq (v8 (ix2 (⟨2 * g.val + 1, by omega⟩ : Fin 512) c)) * v21 (ix2 (⟨g.val / 32, by omega⟩ : Fin 8) c) := by
  unfold k0_pay8
  refine (mulf_apply _ _ _).trans ?_
  rw [pay6_apply]
  refine congrArg (· * _) ?_
  refine (shapeCast_apply _ _ (ix2 g c) (ix3 g (0 : Fin 1) c) ?_).trans ?_
  · rw [Shape.rowMajor_val_two, Shape.rowMajor_val_three]
    show (g.val * 1 + 0) * 1024 + c.val = g.val * 1024 + c.val
    omega
  refine (extractStridedSlice_apply _ _ _ _ (ix3 g (1 : Fin 2) c) ?_).trans ?_
  · intro a
    match a with
    | ⟨0, _⟩ => exact (Nat.zero_add _).symm
    | ⟨1, _⟩ => rfl
    | ⟨2, _⟩ => exact (Nat.zero_add _).symm
  exact pay3_apply v8 g 1 c _ rfl

/-- A select on a word comparison takes the first value exactly where the words are equal. -/
theorem select_cmpi_eq {α : Type} (x w : BitVec 32) (a b : α) :
    Scalar.select (IntOp.cmpi .eq x w) a b = if x = w then a else b := by
  show (if IntOp.cmpi .eq x w = 1#1 then a else b) = _
  by_cases h : x = w
  · rw [if_pos (StableHlo.Predicate.cmpi_eq_iff.2 h), if_pos h]
  · rw [if_neg (fun h' => h (StableHlo.Predicate.cmpi_eq_iff.1 h')), if_neg h]

/-- One slot of the rebuilt groups at an entry: each kept value where its position word is `w`. -/
theorem slot_apply (p0 p1 : IVec S256x1024 32) (a0 a1 : FVec Ideal S256x1024 .f32) (w : BitVec 32) (i : S256x1024.Idx) :
    addf (select (cmpi .eq p0 (broadcast S256x1024 w)) a0 (broadcast S256x1024 (Scalar.ofBits (F := Ideal) .f32 0x00000000#32)))
        (select (cmpi .eq p1 (broadcast S256x1024 w)) a1 (broadcast S256x1024 (Scalar.ofBits (F := Ideal) .f32 0x00000000#32))) i
      = (if p0 i = w then a0 i else 0) + (if p1 i = w then a1 i else 0) := by
  refine (addf_apply _ _ _).trans ?_
  show Scalar.select (IntOp.cmpi .eq (p0 i) w) (a0 i) (Ideal.ofBits .f32 0x00000000#32)
      + Scalar.select (IntOp.cmpi .eq (p1 i) w) (a1 i) (Ideal.ofBits .f32 0x00000000#32) = _
  rw [select_cmpi_eq, select_cmpi_eq, Ideal.ofBits_zero_f32]

/-- What group `g` of the tile puts at its position `j` in column `c`. -/
def groupW (v8 : Vec Ideal S512x1024 .i32) (v17 v19 : Vec Ideal S256x1024 .i32) (v21 : Vec Ideal S8x1024 .f32)
    (g : Fin 256) (c : Fin 1024) (j : ℕ) : EReal :=
  slotOf (v8 (ix2 (⟨2 * g.val, by omega⟩ : Fin 512) c)) (v8 (ix2 (⟨2 * g.val + 1, by omega⟩ : Fin 512) c))
    (v17 (ix2 g c)) (v19 (ix2 g c)) (v21 (ix2 (⟨g.val / 32, by omega⟩ : Fin 8) c)) j

/-- The tile's row `q` is position `q % 4` of group `q / 4`. -/
theorem tileW_eq_groupW (v8 : Vec Ideal S512x1024 .i32) (v17 v19 : Vec Ideal S256x1024 .i32) (v21 : Vec Ideal S8x1024 .f32)
    (q c : Fin 1024) :
    tileW v8 v17 v19 v21 q c = groupW v8 v17 v19 v21 (⟨q.val / 4, by omega⟩ : Fin 256) c (q.val % 4) := rfl

/-- The kernel's slot `j` at group `g`, column `c`. -/
theorem slot_group (v8 : Vec Ideal S512x1024 .i32) (v17 v19 : Vec Ideal S256x1024 .i32) (v21 : Vec Ideal S8x1024 .f32)
    (g : Fin 256) (c : Fin 1024) (j : ℕ) :
    addf (select (cmpi .eq (k0_pay4 (F := Ideal) v17) (broadcast S256x1024 (BitVec.ofNat 32 j))) (k0_pay7 (F := Ideal) v8 v21)
            (broadcast S256x1024 (Scalar.ofBits (F := Ideal) .f32 0x00000000#32)))
        (select (cmpi .eq (k0_pay5 (F := Ideal) v19) (broadcast S256x1024 (BitVec.ofNat 32 j))) (k0_pay8 (F := Ideal) v8 v21)
            (broadcast S256x1024 (Scalar.ofBits (F := Ideal) .f32 0x00000000#32))) (ix2 g c)
      = groupW v8 v17 v19 v21 g c j := by
  refine (slot_apply _ _ _ _ _ _).trans ?_
  rw [pay7_apply, pay8_apply]
  unfold k0_pay4 k0_pay5
  rw [shapeCast_self, shapeCast_self]
  rfl

/-- Four one-row pieces joined along the middle axis: row `j` of the result is piece `j`; so if piece `k` at
    `(g, 0, c)` is `y k` for each of the four, the joined block at `(g, j, c)` is `y j`. -/
theorem concat4_apply {α : Type} (x0 x1 x2 x3 : S256x1x1024.Idx → α)
    (h : Shape.Concatenates (([⟨S256x1x1024, x0⟩, ⟨S256x1x1024, x1⟩, ⟨S256x1x1024, x2⟩, ⟨S256x1x1024, x3⟩] :
      List ((s : Shape) × (s.Idx → α))).map (·.1)) S256x4x1024 1)
    (g : Fin 256) (j : Fin 4) (c : Fin 1024) (y : ℕ → α)
    (h0 : x0 (ix3 g (0 : Fin 1) c) = y 0) (h1 : x1 (ix3 g (0 : Fin 1) c) = y 1)
    (h2 : x2 (ix3 g (0 : Fin 1) c) = y 2) (h3 : x3 (ix3 g (0 : Fin 1) c) = y 3) :
    concatenate S256x4x1024 1 [⟨S256x1x1024, x0⟩, ⟨S256x1x1024, x1⟩, ⟨S256x1x1024, x2⟩, ⟨S256x1x1024, x3⟩] h (ix3 g j c)
      = y j.val := by
  have hi : ∀ (jj : Fin 4) (b : Fin S256x1x1024.rank), b.cast (rfl : S256x1x1024.rank = S256x4x1024.rank) ≠ (1 : Fin S256x4x1024.rank) →
      ((ix3 g (0 : Fin 1) c : S256x1x1024.Idx) b).val
        = ((ix3 g jj c : S256x4x1024.Idx) (b.cast (rfl : S256x1x1024.rank = S256x4x1024.rank))).val := by
    intro jj b hb
    match b with
    | ⟨0, _⟩ => rfl
    | ⟨1, _⟩ => exact absurd rfl hb
    | ⟨2, _⟩ => rfl
  match j with
  | ⟨0, _⟩ => exact (concatenate_apply_piece 1 _ h _ 0 (by simp) S256x1x1024 x0 rfl rfl 0 rfl _ (hi _) rfl).trans h0
  | ⟨1, _⟩ => exact (concatenate_apply_piece 1 _ h _ 1 (by simp) S256x1x1024 x1 rfl rfl 1 rfl _ (hi _) rfl).trans h1
  | ⟨2, _⟩ => exact (concatenate_apply_piece 1 _ h _ 2 (by simp) S256x1x1024 x2 rfl rfl 2 rfl _ (hi _) rfl).trans h2
  | ⟨3, _⟩ => exact (concatenate_apply_piece 1 _ h _ 3 (by simp) S256x1x1024 x3 rfl rfl 3 rfl _ (hi _) rfl).trans h3

/-- A block given a unit middle axis, read at `(g, 0, c)`, is the block at `(g, c)`. -/
theorem piece_apply {α : Type} (X : S256x1024.Idx → α) (h : S256x1024.ShapeCasts S256x1x1024) (g : Fin 256) (c : Fin 1024) :
    shapeCast S256x1x1024 X h (ix3 g (0 : Fin 1) c) = X (ix2 g c) := by
  refine shapeCast_apply _ _ _ (ix2 g c) ?_
  rw [Shape.rowMajor_val_two, Shape.rowMajor_val_three]
  show g.val * 1024 + c.val = (g.val * 1 + 0) * 1024 + c.val
  omega

/-! The block product's operand indices: at result entry `i` and contraction index `q` the left operand is read at
    `(i 0, q)` and the right at `(q, i 1)`. -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The block product into the zero block, at an entry: the sum over the tile's rows. -/
theorem mm_apply (a : FVec Ideal S256x1024 .bf16) (b : FVec Ideal S1024x1024 .bf16) (r : Fin 256) (c : Fin 1024) :
    matmul dot_S256x1024_S1024x1024_S256x1024_1_0_0_1_n_n none a b (constant (F := Ideal) S256x1024 .f32 0x00000000#32) (ix2 r c)
      = ∑ q : Fin 1024, a (ix2 r q) * b (ix2 q c) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r c) ((ValueIdx.contrEquiv1 dot_S256x1024_S1024x1024_S256x1024_1_0_0_1_n_n 1024 rfl rfl).symm k) = ix2 r k := funext fun x => Fin.ext (by
    match x with
    | ⟨0, _⟩ => exact lhs_mm_0 _ _
    | ⟨1, _⟩ => exact (lhs_mm_1 _ _).trans hk)
  have er : dot_S256x1024_S1024x1024_S256x1024_1_0_0_1_n_n.rhsIdx (ix2 r c) ((ValueIdx.contrEquiv1 dot_S256x1024_S1024x1024_S256x1024_1_0_0_1_n_n 1024 rfl rfl).symm k) = ix2 k c := funext fun x => Fin.ext (by
    match x with
    | ⟨0, _⟩ => exact (rhs_mm_0 _ _).trans hk
    | ⟨1, _⟩ => exact rhs_mm_1 _ _)
  rw [el, er]

theorem step_apply (v6 : Vec Ideal S256x1024 .f32) (v8 : Vec Ideal S512x1024 .i32) (v17 v19 : Vec Ideal S256x1024 .i32)
    (v21 : Vec Ideal S8x1024 .f32) (v71 : Vec Ideal S256x1024 .f32) (r : Fin 256) (c : Fin 1024) :
    k0_pay11 (F := Ideal) (k0_pay2 v6) (k0_pay4 v17) (k0_pay5 v19) (k0_pay7 v8 v21) (k0_pay8 v8 v21)
        (k0_pay9 v8 v17 v19 v21) (k0_pay10 v17) v71 (ix2 r c)
      = v71 (ix2 r c) + ∑ q : Fin 1024, v6 (ix2 r q) * tileW v8 v17 v19 v21 q c := by
  unfold k0_pay11
  rw [shapeCast_self]
  refine (addf_apply _ _ _).trans ?_
  refine congrArg (v71 (ix2 r c) + ·) ?_
  refine (mm_apply _ _ r c).trans ?_
  refine Finset.sum_congr rfl fun q _ => ?_
  refine congrArg (v6 (ix2 r q) * ·) ?_
  refine (truncf_apply (s := S1024x1024) (φ := .f32) (ψ := .bf16) _ bitsLt_bf16_f32 (ix2 q c)).trans ?_
  refine (shapeCast_apply _ _ (ix2 q c) (ix3 (⟨q.val / 4, by omega⟩ : Fin 256) (⟨q.val % 4, by omega⟩ : Fin 4) c) ?_).trans ?_
  · rw [Shape.rowMajor_val_two, Shape.rowMajor_val_three]
    show (q.val / 4 * 4 + q.val % 4) * 1024 + c.val = q.val * 1024 + c.val
    omega
  rw [tileW_eq_groupW]
  refine concat4_apply _ _ _ _ _ _ _ _ (groupW v8 v17 v19 v21 _ c) ?_ ?_ ?_ ?_
  · refine (piece_apply _ _ _ c).trans ?_
    unfold k0_pay9
    exact slot_group v8 v17 v19 v21 _ c 0
  · refine (piece_apply _ _ _ c).trans ?_
    unfold k0_pay10
    exact slot_group v8 v17 v19 v21 _ c 1
  · exact (piece_apply _ _ _ c).trans (slot_group v8 v17 v19 v21 _ c 2)
  · exact (piece_apply _ _ _ c).trans (slot_group v8 v17 v19 v21 _ c 3)

/-- The zero block a run's first step stores before accumulating. -/
theorem zero_apply (i : S256x1024.Idx) : k0_pay1 (F := Ideal) i = 0 := by
  unfold k0_pay1
  rw [shapeCast_self]
  exact Ideal.ofBits_zero_f32

end Cert.KernelIdeal.RefValue

end
-- ==== Proof.KernelValue.lean ====
/-
  The kernel's result array is the specification. At point `t` (column tile `t / 8`, row tile `t % 8`) the
  step adds to the accumulator the partial product over the rows `1024·(t%8) … 1024·(t%8)+1023`:
  `∑_q A (r, 1024·(t%8)+q) · W (1024·(t%8)+q, 1024·(t/8)+c)` — the tile rebuilt from the loaded blocks is
  that tile of the dense weight `W`. A column tile's accumulator starts from zero, so after its eighth step it
  holds the sum of the eight partial products, which is the full sum over the 8192 rows (addition of
  extended reals is associative and commutative, so the tiling of the sum does not matter); that is what the
  eighth step writes to output block `(0, t/8)`, and the eight output blocks tile the result.
-/
import proofs.«405010_j9294309229010_1_alg».proof.Proof.Gen.KernelIdeal.Value
import proofs.«405010_j9294309229010_1_alg».proof.Proof.KernelPieces
import proofs.«405010_j9294309229010_1_alg».proof.Proof.KernelBlocks
import proofs.«405010_j9294309229010_1_alg».proof.Proof.KernelTile
import proofs.«405010_j9294309229010_1_alg».proof.Proof.Spec

set_option maxRecDepth 16384

noncomputable section

open scoped BigOperators

namespace Cert.KernelIdeal.RefValue

open Cert.KernelIdeal Cert.KernelIdeal.Gen Idealize.ShloMosaic Idealize.ShloMosaic.TcCoe Idealize.SL.Sem
open Idealize.ShloMosaic.ValueIdx Cert.Sparse24
open Idealize.ShloMosaic.Pipeline (Dat)

variable (m : (ℓ : Loc nD τ sig) → Buf (Elt Ideal) ℓ) (ρ : Dev nD → PrngReg)

/-- The four argument arrays on a device, as the specification takes them. -/
abbrev argA (c : Dev nD) : SA.Idx → EReal := m ((c : Thread nD τ).loc main_arg0)
abbrev argQ (c : Dev nD) : SQ.Idx → BitVec 32 := m ((c : Thread nD τ).loc main_arg1)
abbrev argI (c : Dev nD) : SI.Idx → BitVec 32 := m ((c : Thread nD τ).loc main_arg2)
abbrev argS (c : Dev nD) : SS.Idx → EReal := m ((c : Thread nD τ).loc main_arg3)

/-- One term of the product, insensitive to how its three indices are spelled. -/
theorem term_congr (A : SA.Idx → EReal) (Q : SQ.Idx → BitVec 32) (I : SI.Idx → BitVec 32) (S : SS.Idx → EReal)
    {r r' : Fin 256} {k k' n n' : Fin 8192} (hr : r.val = r'.val) (hk : k.val = k'.val) (hn : n.val = n'.val) :
    A (ix2 r k) * W Q I S k n = A (ix2 r' k') * W Q I S k' n' := by
  obtain rfl := Fin.ext hr; obtain rfl := Fin.ext hk; obtain rfl := Fin.ext hn; rfl

/-- The partial product point `n` adds at entry `y` of its accumulator. -/
def addend (c : Dev nD) (n : ℕ) (y : S256x1024.Idx) : EReal :=
  ∑ q : Fin 1024, argA m c (ix2 (y 0) (⟨n % 8 * 1024 + q.val, by omega⟩ : Fin 8192))
    * W (argQ m c) (argI m c) (argS m c) (⟨n % 8 * 1024 + q.val, by omega⟩ : Fin 8192)
        (⟨n / 8 % 8 * 1024 + (y 1).val, by have : (y 1).val < 1024 := (y 1).isLt; omega⟩ : Fin 8192)

/-- The tile rebuilt from the blocks loaded at point `t` is the tile of `W` at rows `1024·(t%8) …`, columns
    `1024·(t/8) …`: group `q / 4` of the tile is group `256·(t%8) + q / 4` of the matrix, its quantised rows
    `512·(t%8) + 2·(q/4)` and the next, its scale row `8·(t%8) + q/4/32`. -/
theorem tile_eq (c : Dev nD) (t : Fin cfg0.N) (q cc : Fin 1024) :
    tileW (xQ m c t) (xI0 m c t) (xI1 m c t) (xS m c t) q cc
      = W (argQ m c) (argI m c) (argS m c) (⟨t.val % 8 * 1024 + q.val, by omega⟩ : Fin 8192)
          (⟨t.val / 8 * 1024 + cc.val, by have := t.isLt; have : cfg0.N = 64 := N_0; omega⟩ : Fin 8192) := by
  have hN : t.val < 64 := lt_of_lt_of_eq t.isLt (show cfg0.N = 64 from N_0)
  have hq : q.val < 1024 := q.isLt
  unfold tileW W
  rw [xQ_apply, xQ_apply, xI0_apply, xI1_apply, xS_apply]
  have e4 : (t.val % 8 * 1024 + q.val) / 4 = t.val % 8 * 256 + q.val / 4 := by omega
  have e5 : (t.val % 8 * 1024 + q.val) % 4 = q.val % 4 := by omega
  have a1 : (⟨t.val % 8 * 512 + 2 * (q.val / 4), by omega⟩ : Fin 4096) = ⟨2 * ((t.val % 8 * 1024 + q.val) / 4), by omega⟩ := Fin.ext (by dsimp only; omega)
  have a2 : (⟨t.val % 8 * 512 + (2 * (q.val / 4) + 1), by omega⟩ : Fin 4096) = ⟨2 * ((t.val % 8 * 1024 + q.val) / 4) + 1, by omega⟩ := Fin.ext (by dsimp only; omega)
  have a3 : (⟨t.val % 8 * 256 + q.val / 4, by omega⟩ : Fin 2048) = ⟨(t.val % 8 * 1024 + q.val) / 4, by omega⟩ := Fin.ext (by dsimp only; omega)
  have a4 : (⟨t.val % 8 * 8 + q.val / 4 / 32, by omega⟩ : Fin 64) = ⟨(t.val % 8 * 1024 + q.val) / 4 / 32, by omega⟩ := Fin.ext (by dsimp only; omega)
  dsimp only
  rw [a1, a2, a3, a4, e5]

/-- A step adds its point's partial product to the accumulator it found. -/
theorem step_value (c : Dev nD) (t : Fin cfg0.N) (acc : Vec Ideal S256x1024 .f32) (y : S256x1024.Idx) :
    stepOf (grid0.coords t) (xA m c t) (xQ m c t) (xI0 m c t) (xI1 m c t) (xS m c t) acc y = acc y + addend m c t.val y := by
  have hN : t.val < 64 := lt_of_lt_of_eq t.isLt (show cfg0.N = 64 from N_0)
  obtain ⟨r, cc, rfl⟩ : ∃ (r : Fin 256) (cc : Fin 1024), y = ix2 r cc := ⟨y 0, y 1, eq_ix2 y⟩
  refine (step_apply (View.ld (xA m c t) (Rect.unit (k0_off1 (grid0.coords t)) S256x1024.size (k0_off1_inb (grid0.coords t))))
    (xQ m c t) (xI0 m c t) (xI1 m c t) (xS m c t) acc r cc).trans ?_
  congr 1
  unfold addend
  refine Finset.sum_congr rfl fun q _ => ?_
  rw [slab_apply, tile_eq]
  exact term_congr _ _ _ _ rfl rfl (by show t.val / 8 * 1024 + cc.val = t.val / 8 % 8 * 1024 + cc.val; omega)

/-- The accumulator after point `t`: zero plus the partial products of its column tile's points so far. -/
theorem scratch_eq (c : Dev nD) (t : Fin cfg0.N) (y : S256x1024.Idx) :
    (outsAt0 m c t.val t.isLt).2 y = 0 + ∑ s ∈ Finset.range (t.val % 8 + 1), addend m c (8 * (t.val / 8) + s) y := by
  have hN : t.val < 64 := lt_of_lt_of_eq t.isLt (show cfg0.N = 64 from N_0)
  have hNN : cfg0.N = 64 := N_0
  rw [Value.soutsAt0_0_eq m c t]
  refine Pipeline.accAt_add_apply _ _ (fun _ => (0 : EReal)) (addend m c) (8 * (t.val / 8)) 7 ?_ ?_ (t.val % 8) (by omega) _ y
  · intro h i
    unfold Value.scAt0_0
    rw [dif_pos (by omega : 8 * (t.val / 8) % 8 = 0), dif_neg (by omega : ¬ 8 * (t.val / 8) % 8 = 7), soutA]
    refine (step_value m c ⟨8 * (t.val / 8), h⟩ (k0_pay1 (F := Ideal)) i).trans ?_
    rw [zero_apply]
  · intro n h acc i hb he
    have h0 : ¬ n % 8 = 0 := by omega
    unfold Value.scAt0_0
    rw [dif_neg h0]
    by_cases h7 : n % 8 = 7
    · rw [dif_pos h7, soutC]
      exact step_value m c ⟨n, h⟩ acc i
    · rw [dif_neg h7, soutB]
      exact step_value m c ⟨n, h⟩ acc i

/-- At a column tile's last point the block written out is the accumulator. -/
theorem out_eq (c : Dev nD) (t : Fin cfg0.N) (h7 : t.val % 8 = 7) :
    (outsAt0 m c t.val t.isLt).1 = (outsAt0 m c t.val t.isLt).2 := by
  have h0 : ¬ t.val % 8 = 0 := by omega
  rw [outsAt0_C m c t h0 h7]
  dsimp only
  rw [outC, soutC]

/-- The eight partial products of column tile `nt` sum to the specification's entry. -/
theorem tiles_sum (c : Dev nD) (nt : ℕ) (hnt : nt < 8) (y : S256x1024.Idx) (i : SA.Idx)
    (h0 : (i 0).val = (y 0).val) (h1 : (i 1).val = nt * 1024 + (y 1).val) :
    0 + ∑ s ∈ Finset.range (7 + 1), addend m c (8 * nt + s) y = G (argA m c) (argQ m c) (argI m c) (argS m c) i := by
  have hy1 : (y 1).val < 1024 := (y 1).isLt
  rw [zero_add]
  unfold G
  rw [sum_tiles, ← Fin.sum_univ_eq_sum_range (fun s => addend m c (8 * nt + s) y) 8]
  refine Finset.sum_congr rfl fun b _ => ?_
  have hb : b.val < 8 := b.isLt
  unfold addend
  refine Finset.sum_congr rfl fun q _ => ?_
  exact term_congr _ _ _ _ h0.symm (by dsimp only; omega) (by dsimp only; omega)

/-- What a column tile's last point writes back is its block of the specification. -/
theorem flushed_eq (c : Dev nD) (t : Fin cfg0.N) (hf : (cfg0.win 5).flush t = true) :
    (dats m 0 c).flushed 5 t
      = ((cfg0.win 5).blk t).view.read (Elt Ideal) (G (argA m c) (argQ m c) (argI m c) (argS m c)) := by
  have hN : t.val < 64 := lt_of_lt_of_eq t.isLt (show cfg0.N = 64 from N_0)
  have h7 : t.val % 8 = 7 := (flush0_5 t).mp hf
  obtain ⟨-, -, -, -, -, -, -, -, -, -, -, -, e0, e1⟩ := idx_facts t
  rw [Value.flushed5]
  funext j
  show (outsAt0 m c t.val t.isLt).1 j = G (argA m c) (argQ m c) (argI m c) (argS m c) (((cfg0.win 5).blk t).view.emb j)
  rw [out_eq m c t h7, scratch_eq, h7]
  refine tiles_sum m c (t.val / 8) (by omega) j _ ?_ ?_
  · show win0_5.index t (0 : Fin 2) * 256 + 1 * (j 0).val = (j 0).val; omega
  · show win0_5.index t (1 : Fin 2) * 1024 + 1 * (j 1).val = t.val / 8 * 1024 + (j 1).val; omega

/-- The eight written blocks cover the result: column `n` lies in the block of column tile `n / 1024`, written at
    that tile's last point. -/
theorem cover (c : Dev nD) (i : S256x8192.Idx) :
    ∃ t : Fin cfg0.N, (cfg0.win 5).flush t = true ∧ i ∈ ((cfg0.win 5).blk t).view.set := by
  have hi0 : (i 0).val < 256 := (i 0).isLt
  have hi1 : (i 1).val < 8192 := (i 1).isLt
  have hNN : cfg0.N = 64 := N_0
  let t : Fin cfg0.N := ⟨8 * ((i 1).val / 1024) + 7, by omega⟩
  obtain ⟨-, -, -, -, -, -, -, -, -, -, -, -, e0, e1⟩ := idx_facts t
  have ht : t.val = 8 * ((i 1).val / 1024) + 7 := rfl
  refine ⟨t, (flush0_5 t).mpr (by omega), ?_⟩
  show i ∈ ((View.whole main_v4).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- So the result array ends holding the specification. -/
theorem final (c : Dev nD) :
    (dats m 0 c).arrAt 5 cfg0.N = G (argA m c) (argQ m c) (argI m c) (argS m c) :=
  (dats m 0 c).arrAt_eq_of_cover 5 _ (flushed_eq m c) (cover c)

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v4) = G (argA m c) (argQ m c) (argI m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RefValue

end
-- ==== Proof.LibScatterSet.lean ====
/-
  A "SET" SCATTER READ AT ONE ENTRY.

  `Host.scatter` is a left fold over the update indices in row-major order; with the update function
  `fun _ b => b` (`x.at[idx].set(v)`) each step overwrites the entry its update lands on and leaves every other
  entry alone. Read at one entry `i`, only the updates that land on `i` matter: if none does the entry keeps the
  operand's value, and if exactly one does the entry holds that update's value, whatever the order of the fold.
  Both statements hold for every dimension record, operand, index array and update array; a certificate
  supplies which updates land on `i` (`resultIdx?_eq_some_iff` turns that into one integer equation per
  operand axis).
-/
import Idealize.ShloMosaic.PureOps.Ideal
import Idealize.ShloMosaic.Lib.ValueIdx

noncomputable section

namespace Idealize.ShloMosaic.ScatterSet

open Idealize.ShloMosaic

/-! ## A "set" scatter read at one entry

`Host.scatter` folds over the update indices in row-major order; with the update function `fun _ b => b`
each step overwrites the entry its update lands on. Read at one entry `i`, only the updates that land on
`i` matter: with none the entry keeps the operand's value, and with exactly one it holds that update's
value. These hold for every dimension record, operand, index array and update array. -/

variable {α : Type} {s si u : Shape} {w : Nat}

/-- An update lands on entry `i` exactly when, on every operand axis, its window start plus its window
    coordinate is `i`'s coordinate (which is then inside the operand, being a coordinate). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hb =>
      have e := Option.some.inj h
      intro a
      have := congrArg (fun f => (f a).val) e
      have hb' := hb a
      simp only at this
      omega
    · exact absurd h (by simp)
  · intro h
    have hb : ∀ a, 0 ≤ d.start j idx a + d.window j a ∧ d.start j idx a + d.window j a < s.size a := by
      intro a
      have := (i a).isLt
      rw [h a]
      omega
    rw [dif_pos hb]
    congr 1
    funext a
    apply Fin.ext
    show (d.start j idx a + d.window j a).toNat = (i a).val
    rw [h a]
    omega

/-- The fold over any list of update numbers, read at `i`, when update number `n0` lands on `i` and no
    other number of the list does: `n0`'s update once the list has met `n0`, the starting value before. -/
theorem foldl_set_apply (d : ScatterDims s si u) (idx : IVec si w) (upd : u.Idx → α) (i : s.Idx)
    (n0 : Fin u.numel) (h0 : d.resultIdx? (u.rowMajor.symm n0) idx = some i) :
    ∀ (l : List (Fin u.numel)) (r : s.Idx → α),
      (∀ n ∈ l, d.resultIdx? (u.rowMajor.symm n) idx = some i → n = n0) →
      (l.foldl (fun r n =>
        match d.resultIdx? (u.rowMajor.symm n) idx with
        | some i => fun i' => if i' = i then (fun _ b => b) (r i) (upd (u.rowMajor.symm n)) else r i'
        | none => r) r) i = if n0 ∈ l then upd (u.rowMajor.symm n0) else r i := by
  intro l
  induction l with
  | nil => intro r _; simp
  | cons a l ih =>
    intro r hu
    rw [List.foldl_cons, ih _ (fun n hn => hu n (List.mem_cons_of_mem a hn))]
    by_cases ha : a = n0
    · subst ha
      rw [h0]
      simp
    · have hne : d.resultIdx? (u.rowMajor.symm a) idx ≠ some i := fun h => ha (hu a (List.mem_cons_self) h)
      have hstep : (match d.resultIdx? (u.rowMajor.symm a) idx with
        | some i => fun i' => if i' = i then (fun _ b => b) (r i) (upd (u.rowMajor.symm a)) else r i'
        | none => r) i = r i := by
        generalize d.resultIdx? (u.rowMajor.symm a) idx = o at hne
        cases o with
        | none => rfl
        | some i2 =>
          have : i ≠ i2 := fun e => hne (by rw [e])
          exact if_neg this
      rw [hstep]
      have : (n0 ∈ a :: l) ↔ n0 ∈ l := by
        rw [List.mem_cons]
        constructor
        · rintro (h | h)
          · exact absurd h.symm ha
          · exact h
        · exact Or.inr
      simp only [this]

/-- The fold over any list of update numbers none of which lands on `i` leaves entry `i` as it was. -/
theorem foldl_set_apply_of_none (d : ScatterDims s si u) (idx : IVec si w) (upd : u.Idx → α) (i : s.Idx) :
    ∀ (l : List (Fin u.numel)) (r : s.Idx → α),
      (∀ n ∈ l, d.resultIdx? (u.rowMajor.symm n) idx ≠ some i) →
      (l.foldl (fun r n =>
        match d.resultIdx? (u.rowMajor.symm n) idx with
        | some i => fun i' => if i' = i then (fun _ b => b) (r i) (upd (u.rowMajor.symm n)) else r i'
        | none => r) r) i = r i := by
  intro l
  induction l with
  | nil => intro r _; rfl
  | cons a l ih =>
    intro r hn
    rw [List.foldl_cons, ih _ (fun n hm => hn n (List.mem_cons_of_mem a hm))]
    have hne := hn a List.mem_cons_self
    generalize d.resultIdx? (u.rowMajor.symm a) idx = o at hne
    cases o with
    | none => rfl
    | some i2 =>
      have : i ≠ i2 := fun e => hne (by rw [e])
      exact if_neg this

/-- **A set scatter at an entry exactly one update lands on** is that update's value. -/
theorem scatter_set_apply_of_unique (d : ScatterDims s si u) (x : s.Idx → α) (idx : IVec si w) (upd : u.Idx → α)
    (i : s.Idx) (j0 : u.Idx) (h0 : d.resultIdx? j0 idx = some i)
    (hu : ∀ j, d.resultIdx? j idx = some i → j = j0) :
    Host.scatter d (fun _ b => b) x idx upd i = upd j0 := by
  unfold Host.scatter
  have h0' : d.resultIdx? (u.rowMajor.symm (u.rowMajor j0)) idx = some i := by
    rw [Equiv.symm_apply_apply]; exact h0
  have key := foldl_set_apply d idx upd i (u.rowMajor j0) h0' (List.finRange u.numel) x (fun n _ hn => by
    rw [← hu _ hn, Equiv.apply_symm_apply])
  rw [if_pos (List.mem_finRange _), Equiv.symm_apply_apply] at key
  exact key

/-- **A set scatter at an entry no update lands on** is the operand's value. -/
theorem scatter_set_apply_of_none (d : ScatterDims s si u) (x : s.Idx → α) (idx : IVec si w) (upd : u.Idx → α)
    (i : s.Idx) (hn : ∀ j, d.resultIdx? j idx ≠ some i) :
    Host.scatter d (fun _ b => b) x idx upd i = x i := by
  unfold Host.scatter
  exact foldl_set_apply_of_none d idx upd i _ x (fun n _ => hn _)

end Idealize.ShloMosaic.ScatterSet

end
-- ==== Proof.RefScatter.lean ====
/-
  The reference's scatter read at an entry. The reference writes each group's two dequantised values into a
  zero group of four at the positions the index array names, `W[g, n, I (g, n, t)] = vals (g, n, t)`. With
  every position in `{0,1,2,3}` and the two positions of a group different, entry `(g, n, j)` of the result
  is the second value where the second position is `j`, the first value where the first is, and zero
  where neither is.
-/
import proofs.«405010_j9294309229010_1_alg».proof.Proof.Gen.ReferenceIdeal.Read
import proofs.«405010_j9294309229010_1_alg».proof.Proof.Spec
import proofs.«405010_j9294309229010_1_alg».proof.Proof.LibScatterSet
import Idealize.ShloMosaic.Lib.StableHlo.Predicate

noncomputable section

namespace Cert.ReferenceIdeal.RefValue

open Cert.ReferenceIdeal Cert.ReferenceIdeal.Gen Idealize.ShloMosaic Idealize.ShloMosaic.ValueIdx Cert.Sparse24
open Idealize.ShloMosaic.ScatterSet

section ThisScatter

/-! ## The reference's dimension record: every operand axis is named by the index vector, none is a window axis -/

local notation "dS" => scatter_S2048x8192x4_S2048x8192x2x3_S2048x8192x2_n_012_012_3

/-- No operand axis is kept for a window, so every window coordinate is zero. -/
theorem window_eq (j : S2048x8192x2.Idx) (a : Fin 3) : (dS).window j a = 0 := by
  unfold ScatterDims.window
  have hk : (dS).sKept = [] := by decide
  exact dif_neg (fun h => by rw [hk] at h; exact absurd h List.not_mem_nil)

/-- Update `(g, n, t)` reads component `c` of its index vector at `(g, n, t, c)` of the index array. -/
theorem siIdx_eq (g : Fin 2048) (n : Fin 8192) (t : Fin 2) (c : Fin 3) :
    (dS).siIdx (ix3 g n t) c = ix4 g n t c := by
  funext b
  match b with
  | ⟨0, _⟩ => rfl
  | ⟨1, _⟩ => rfl
  | ⟨2, _⟩ => rfl
  | ⟨3, _⟩ => rfl

/-- The window start on operand axis `a` is component `a` of the update's index vector, read signed. -/
theorem start_eq (idx : IVec S2048x8192x2x3 32) (g : Fin 2048) (n : Fin 8192) (t : Fin 2) (a : Fin 3) :
    (dS).start (ix3 g n t) idx a = (idx (ix4 g n t a)).toInt := by
  unfold ScatterDims.start
  match a with
  | ⟨0, _⟩ =>
    exact (dif_pos (by decide : (0 : Fin 3) ∈ (dS).scatterDimsToOperandDims)).trans
      (congrArg (fun k => (idx k).toInt) (siIdx_eq g n t _))
  | ⟨1, _⟩ =>
    exact (dif_pos (by decide : (1 : Fin 3) ∈ (dS).scatterDimsToOperandDims)).trans
      (congrArg (fun k => (idx k).toInt) (siIdx_eq g n t _))
  | ⟨2, _⟩ =>
    exact (dif_pos (by decide : (2 : Fin 3) ∈ (dS).scatterDimsToOperandDims)).trans
      (congrArg (fun k => (idx k).toInt) (siIdx_eq g n t _))

end ThisScatter

section Operands

/-! ## The scatter's operands read at an index: the index array's three components and the updates -/

open Idealize.ShloMosaic.StableHlo.Predicate

/-- A select that adds a wrap to a negative word leaves a non-negative word alone. -/
theorem select_slt_zero (x y : BitVec 32) (h : 0 ≤ x.toInt) :
    Scalar.select (IntOp.cmpi .slt x 0#32) y x = x := by
  have hc : IntOp.cmpi .slt x 0#32 = 0#1 := by
    unfold IntOp.cmpi
    have hz : (0#32 : BitVec 32).toInt = 0 := by decide
    have : x.slt 0#32 = false := by
      simp only [BitVec.slt, hz, decide_eq_false_iff_not]; omega
    rw [this]; rfl
  rw [hc]; exact select_zero _ _

variable {F : FTy → Type} [FloatOps F]

/-- Component 0 of an index vector is the group number. -/
theorem v30_apply0 (I : (⟨S2048x8192x2, .i32⟩ : BufTy).Contents (Elt F)) (g : Fin 2048) (n : Fin 8192) (t : Fin 2) :
    Read.val_main_v30 (F := F) I (ix4 g n t (0 : Fin 3)) = BitVec.ofNat 32 g.val := by
  unfold Read.val_main_v30
  rw [concatenate_apply_piece (3 : Fin 4) _ _ (ix4 g n t (0 : Fin 3)) 0 (by simp) S2048x8192x2x1
    (Read.val_main_v27 (F := F)) rfl rfl 0 rfl (ix4 g n t (0 : Fin 1))
    (fun b hb => match b with
      | ⟨0, _⟩ => rfl
      | ⟨1, _⟩ => rfl
      | ⟨2, _⟩ => rfl
      | ⟨3, _⟩ => absurd rfl hb) rfl]
  rw [Read.val_main_v27_apply, Read.val_main_v25_apply, Read.val_main_v14_apply, Read.val_main_v11_apply,
    Read.val_main_v7_apply, Read.val_main_v6_apply, Read.val_main_v10_apply, Read.val_main_c_apply]
  refine select_slt_zero _ _ ?_
  show 0 ≤ (BitVec.ofNat 32 g.val).toInt
  have := g.isLt
  rw [toInt_ofNat_small _ (by omega)]; omega

/-- Component 1 of an index vector is the column. -/
theorem v30_apply1 (I : (⟨S2048x8192x2, .i32⟩ : BufTy).Contents (Elt F)) (g : Fin 2048) (n : Fin 8192) (t : Fin 2) :
    Read.val_main_v30 (F := F) I (ix4 g n t (1 : Fin 3)) = BitVec.ofNat 32 n.val := by
  unfold Read.val_main_v30
  rw [concatenate_apply_piece (3 : Fin 4) _ _ (ix4 g n t (1 : Fin 3)) 1 (by simp) S2048x8192x2x1
    (Read.val_main_v28 (F := F)) rfl rfl 1 rfl (ix4 g n t (0 : Fin 1))
    (fun b hb => match b with
      | ⟨0, _⟩ => rfl
      | ⟨1, _⟩ => rfl
      | ⟨2, _⟩ => rfl
      | ⟨3, _⟩ => absurd rfl hb) rfl]
  rw [Read.val_main_v28_apply, Read.val_main_v26_apply, Read.val_main_v19_apply, Read.val_main_v16_apply,
    Read.val_main_v9_apply, Read.val_main_v8_apply, Read.val_main_v15_apply, Read.val_main_c_2_apply]
  refine select_slt_zero _ _ ?_
  show 0 ≤ (BitVec.ofNat 32 n.val).toInt
  have := n.isLt
  rw [toInt_ofNat_small _ (by omega)]; omega

/-- Component 2 of an index vector is the position word, when that is not negative. -/
theorem v30_apply2 (I : (⟨S2048x8192x2, .i32⟩ : BufTy).Contents (Elt F)) (g : Fin 2048) (n : Fin 8192) (t : Fin 2)
    (h : 0 ≤ (I (ix3 g n t)).toInt) :
    Read.val_main_v30 (F := F) I (ix4 g n t (2 : Fin 3)) = I (ix3 g n t) := by
  unfold Read.val_main_v30
  rw [concatenate_apply_piece (3 : Fin 4) _ _ (ix4 g n t (2 : Fin 3)) 2 (by simp) S2048x8192x2x1
    (Read.val_main_v29 (F := F) I) rfl rfl 2 rfl (ix4 g n t (0 : Fin 1))
    (fun b hb => match b with
      | ⟨0, _⟩ => rfl
      | ⟨1, _⟩ => rfl
      | ⟨2, _⟩ => rfl
      | ⟨3, _⟩ => absurd rfl hb) rfl]
  rw [Read.val_main_v29_apply, Read.val_main_v24_apply, Read.val_main_v21_apply,
    Read.val_main_v20_apply, Read.val_main_c_4_apply]
  have e : Read.idx_main_v29 (ix4 g n t (0 : Fin 1)) = ix3 g n t := by
    funext a
    match a with
    | ⟨0, _⟩ => rfl
    | ⟨1, _⟩ => rfl
    | ⟨2, _⟩ => rfl
  rw [e]
  exact select_slt_zero _ _ h

/-- An update is the dequantised word of its row of the quantised matrix. -/
theorem v4_apply (Q : (⟨S4096x8192, .i32⟩ : BufTy).Contents (Elt Ideal)) (g : Fin 2048) (n : Fin 8192) (t : Fin 2) :
    Read.val_main_v4 (F := Ideal) Q (ix3 g n t)
      = deq (Q (ix2 (⟨2 * g.val + t.val, by have := g.isLt; have := t.isLt; omega⟩ : Fin 4096) n)) := by
  rw [Read.val_main_v4_apply, Read.val_main_v3_apply, Read.val_main_v2_apply, Read.val_main_v0_apply,
    Read.val_main_v1_apply, Read.val_main_cst_apply]
  have e : Read.idx_main_v3 (Read.idx_main_v4 (ix3 g n t))
      = ix2 (⟨2 * g.val + t.val, by have := g.isLt; have := t.isLt; omega⟩ : Fin 4096) n := by
    have hg := g.isLt; have hn := n.isLt; have ht := t.isLt
    funext a
    match a with
    | ⟨0, _⟩ =>
      apply Fin.ext
      show ((g.val * 2 + t.val) * 8192 + n.val) / 8192 = 2 * g.val + t.val
      omega
    | ⟨1, _⟩ =>
      apply Fin.ext
      show ((g.val * 2 + t.val) * 8192 + n.val) % 8192 = n.val
      omega
  rw [e]
  rfl

end Operands

section Assembly

/-! ## Which updates land on an entry -/

open Idealize.ShloMosaic.StableHlo.Predicate

local notation "dS" => scatter_S2048x8192x4_S2048x8192x2x3_S2048x8192x2_n_012_012_3

/-- A word whose signed value is one of `0 … 3` is the word of `j` exactly when that value is `j`. -/
theorem word_eq_iff (x : BitVec 32) (h : 0 ≤ x.toInt ∧ x.toInt < 4) (j : Fin 4) :
    x = BitVec.ofNat 32 j.val ↔ x.toInt = (j.val : Int) := by
  have hj := j.isLt
  constructor
  · intro e; rw [e, toInt_ofNat_small _ (by omega)]
  · intro e
    apply BitVec.eq_of_toInt_eq
    rw [e, toInt_ofNat_small _ (by omega)]

/-- Update `(g', n', t)` lands on entry `(g, n, j)` exactly when it is of that group and column and its
    position word is `j`. -/
theorem hit_iff (I : (⟨S2048x8192x2, .i32⟩ : BufTy).Contents (Elt Ideal)) (hI : Admissible I)
    (g' g : Fin 2048) (n' n : Fin 8192) (t : Fin 2) (j : Fin 4) :
    (dS).resultIdx? (ix3 g' n' t) (Read.val_main_v30 (F := Ideal) I) = some (ix3 g n j)
      ↔ g' = g ∧ n' = n ∧ I (ix3 g' n' t) = BitVec.ofNat 32 j.val := by
  have hr := hI.1 (ix3 g' n' t)
  have hg' := g'.isLt; have hn' := n'.isLt
  have e0 : (dS).start (ix3 g' n' t) (Read.val_main_v30 (F := Ideal) I) (0 : Fin 3)
      + ((dS).window (ix3 g' n' t) (0 : Fin 3) : Int) = (g'.val : Int) := by
    rw [start_eq, window_eq, v30_apply0, toInt_ofNat_small _ (by omega)]; simp
  have e1 : (dS).start (ix3 g' n' t) (Read.val_main_v30 (F := Ideal) I) (1 : Fin 3)
      + ((dS).window (ix3 g' n' t) (1 : Fin 3) : Int) = (n'.val : Int) := by
    rw [start_eq, window_eq, v30_apply1, toInt_ofNat_small _ (by omega)]; simp
  have e2 : (dS).start (ix3 g' n' t) (Read.val_main_v30 (F := Ideal) I) (2 : Fin 3)
      + ((dS).window (ix3 g' n' t) (2 : Fin 3) : Int) = (I (ix3 g' n' t)).toInt := by
    rw [start_eq, window_eq, v30_apply2 I g' n' t hr.1]; simp
  rw [resultIdx?_eq_some_iff, word_eq_iff _ hr]
  constructor
  · intro h
    have h0 := h (0 : Fin 3); have h1 := h (1 : Fin 3); have h2 := h (2 : Fin 3)
    rw [e0] at h0; rw [e1] at h1; rw [e2] at h2
    exact ⟨Fin.ext (Int.ofNat_inj.mp h0), Fin.ext (Int.ofNat_inj.mp h1), h2⟩
  · rintro ⟨rfl, rfl, h2⟩ a
    match a with
    | ⟨0, _⟩ => exact e0
    | ⟨1, _⟩ => exact e1
    | ⟨2, _⟩ => exact e2.trans h2

end Assembly

theorem scatter_apply (Q : (⟨S4096x8192, .i32⟩ : BufTy).Contents (Elt Ideal)) (I : (⟨S2048x8192x2, .i32⟩ : BufTy).Contents (Elt Ideal))
    (hI : Admissible I) (g : Fin 2048) (n : Fin 8192) (j : Fin 4) :
    Read.val_main_v31 (F := Ideal) Q I (ix3 g n j)
      = if I (ix3 g n (1 : Fin 2)) = BitVec.ofNat 32 j.val then deq (Q (ix2 (⟨2 * g.val + 1, by omega⟩ : Fin 4096) n))
        else if I (ix3 g n (0 : Fin 2)) = BitVec.ofNat 32 j.val then deq (Q (ix2 (⟨2 * g.val, by omega⟩ : Fin 4096) n))
        else 0 := by
  unfold Read.val_main_v31
  have hne := hI.2 g n
  -- an update index is a triple; its last coordinate is 0 or 1
  have split3 : ∀ j' : S2048x8192x2.Idx, ∃ (g' : Fin 2048) (n' : Fin 8192) (t' : Fin 2), j' = ix3 g' n' t' :=
    fun j' => ⟨j' 0, j' 1, j' 2, eq_ix3 j'⟩
  have two : ∀ t' : Fin 2, t' = 0 ∨ t' = 1 := fun t' => by
    have := t'.isLt
    rcases (by omega : t'.val = 0 ∨ t'.val = 1) with h | h
    · exact Or.inl (Fin.ext h)
    · exact Or.inr (Fin.ext h)
  by_cases h1 : I (ix3 g n (1 : Fin 2)) = BitVec.ofNat 32 j.val
  · rw [if_pos h1, scatter_set_apply_of_unique _ _ _ _ (ix3 g n j) (ix3 g n (1 : Fin 2))
      ((hit_iff I hI g g n n 1 j).2 ⟨rfl, rfl, h1⟩) ?_]
    · exact v4_apply Q g n 1
    · intro j' hj'
      obtain ⟨g', n', t', rfl⟩ := split3 j'
      obtain ⟨rfl, rfl, et⟩ := (hit_iff I hI _ _ _ _ _ j).1 hj'
      rcases two t' with rfl | rfl
      · exact absurd (et.trans h1.symm) hne
      · rfl
  · rw [if_neg h1]
    by_cases h0 : I (ix3 g n (0 : Fin 2)) = BitVec.ofNat 32 j.val
    · rw [if_pos h0, scatter_set_apply_of_unique _ _ _ _ (ix3 g n j) (ix3 g n (0 : Fin 2))
        ((hit_iff I hI g g n n 0 j).2 ⟨rfl, rfl, h0⟩) ?_]
      · exact v4_apply Q g n 0
      · intro j' hj'
        obtain ⟨g', n', t', rfl⟩ := split3 j'
        obtain ⟨rfl, rfl, et⟩ := (hit_iff I hI _ _ _ _ _ j).1 hj'
        rcases two t' with rfl | rfl
        · rfl
        · exact absurd et h1
    · rw [if_neg h0, scatter_set_apply_of_none _ _ _ _ (ix3 g n j) ?_]
      · rw [Read.val_main_v5_apply, Read.val_main_cst_0_apply]
        exact Ideal.ofBits_zero_f32
      · intro j' hj'
        obtain ⟨g', n', t', rfl⟩ := split3 j'
        obtain ⟨rfl, rfl, et⟩ := (hit_iff I hI _ _ _ _ _ j).1 hj'
        rcases two t' with rfl | rfl
        · exact h0 et
        · exact h1 et

end Cert.ReferenceIdeal.RefValue

end
-- ==== Proof.RefResult.lean ====
/-
  The reference's result is the specification. Its dense matrix — scatter, transpose, reshape to 8192×8192,
  scale by the per-128-row scales — has at `(k, n)` the slot `k % 4` of group `k / 4` times scale row
  `k / 128`, which for admissible positions is the specification's weight; its matrix product is then the
  specification's sum.
-/
import proofs.«405010_j9294309229010_1_alg».proof.Proof.RefScatter

noncomputable section

open scoped BigOperators

namespace Cert.ReferenceIdeal.RefValue

open Cert.ReferenceIdeal Cert.ReferenceIdeal.Gen Idealize.ShloMosaic Idealize.ShloMosaic.ValueIdx Cert.Sparse24

/-- Splitting row `k` of the 8192×8192 matrix into (scale block `k / 128`, row in block `k % 128`) and
    flattening again gives back `(k, n)`: the two reshapes around the scaling cancel. -/
theorem idx_v34_v38 (k n : Fin 8192) :
    Read.idx_main_v34 (Read.idx_main_v38 (ix2 k n)) = ix2 k n := by
  have hk := k.isLt
  have hn := n.isLt
  funext a
  apply Fin.ext
  match a with
  | ⟨0, _⟩ =>
    show (((k.val * 8192 + n.val) / 1048576 * 128 + (k.val * 8192 + n.val) / 8192 % 128) * 8192 + (k.val * 8192 + n.val) % 8192) / 8192 = k.val
    omega
  | ⟨1, _⟩ =>
    show (((k.val * 8192 + n.val) / 1048576 * 128 + (k.val * 8192 + n.val) / 8192 % 128) * 8192 + (k.val * 8192 + n.val) % 8192) % 8192 = n.val
    omega

/-- Entry `(k, n)` of the 8192×8192 matrix comes, through the reshape from 2048×4×8192 and the transpose, from
    entry (group `k / 4`, column `n`, position `k % 4`) of the scattered array. -/
theorem idx_v32_v33 (k n : Fin 8192) :
    Read.idx_main_v32 (Read.idx_main_v33 (ix2 k n))
      = ix3 (⟨k.val / 4, by omega⟩ : Fin 2048) n (⟨k.val % 4, by omega⟩ : Fin 4) := by
  have hk := k.isLt
  have hn := n.isLt
  funext a
  apply Fin.ext
  match a with
  | ⟨0, _⟩ =>
    show (k.val * 8192 + n.val) / 32768 = k.val / 4
    omega
  | ⟨1, _⟩ =>
    show (k.val * 8192 + n.val) % 8192 = n.val
    omega
  | ⟨2, _⟩ =>
    show (k.val * 8192 + n.val) / 8192 % 4 = k.val % 4
    omega

/-- The scale that multiplies entry `(k, n)` is row `k / 128 = (k / 4) / 32`, column `n` of the scales. -/
theorem idx_v35_v36_v38 (k n : Fin 8192) :
    Read.idx_main_v35 (Read.idx_main_v36 (Read.idx_main_v38 (ix2 k n)))
      = ix2 (⟨k.val / 4 / 32, by omega⟩ : Fin 64) n := by
  have hk := k.isLt
  have hn := n.isLt
  funext a
  apply Fin.ext
  match a with
  | ⟨0, _⟩ =>
    show (k.val * 8192 + n.val) / 1048576 = k.val / 4 / 32
    omega
  | ⟨1, _⟩ =>
    show (k.val * 8192 + n.val) % 8192 = n.val
    omega

/-- The reference's dense matrix is the specification's weight: at `(k, n)` it is the scattered entry of
    group `k / 4`, position `k % 4`, times the group's scale, and with the group's two positions different
    that is the specification's slot. -/
theorem weight_apply (Q : (⟨S4096x8192, .i32⟩ : BufTy).Contents (Elt Ideal))
    (I : (⟨S2048x8192x2, .i32⟩ : BufTy).Contents (Elt Ideal)) (S : (⟨S64x8192, .f32⟩ : BufTy).Contents (Elt Ideal))
    (hI : Admissible I) (k n : Fin 8192) :
    Read.val_main_v38 (F := Ideal) Q I S (ix2 k n) = W Q I S k n := by
  rw [Read.val_main_v38_apply, Read.val_main_v37_apply, Read.val_main_v34_apply, Read.val_main_v33_apply,
    Read.val_main_v32_apply, Read.val_main_v36_apply, Read.val_main_v35_apply,
    idx_v34_v38, idx_v32_v33, idx_v35_v36_v38, scatter_apply Q I hI, Ideal.mulf_def]
  unfold W
  rw [slotOf_eq_scatter_mul _ _ _ _ _ _ (hI.2 _ n)]

/-- The matrix product of the activations with the reference's dense matrix is, term by term of the sum over
    the 8192 rows, the specification's sum. -/
theorem result_eq (A : (⟨S256x8192, .f32⟩ : BufTy).Contents (Elt Ideal)) (Q : (⟨S4096x8192, .i32⟩ : BufTy).Contents (Elt Ideal))
    (I : (⟨S2048x8192x2, .i32⟩ : BufTy).Contents (Elt Ideal)) (S : (⟨S64x8192, .f32⟩ : BufTy).Contents (Elt Ideal))
    (hI : Admissible I) :
    Read.val_main_v39 (F := Ideal) A Q I S = G A Q I S := by
  funext i
  obtain ⟨r, n, rfl⟩ : ∃ (r : Fin 256) (n : Fin 8192), i = ix2 r n := ⟨i 0, i 1, eq_ix2 i⟩
  rw [Read.val_main_v39_apply]
  unfold G
  refine Finset.sum_congr rfl fun k _ => ?_
  have eA : Read.lidx_main_v39 (ix2 r n) k = ix2 r k :=
    funext fun a => Fin.ext (by match a with | ⟨0, _⟩ => rfl | ⟨1, _⟩ => rfl)
  have eW : Read.ridx_main_v39 (ix2 r n) k = ix2 k n :=
    funext fun a => Fin.ext (by match a with | ⟨0, _⟩ => rfl | ⟨1, _⟩ => rfl)
  rw [eA, eW, weight_apply Q I S hI k n]

end Cert.ReferenceIdeal.RefValue

end
-- ==== Proof.PreDomain.lean ====
/-
  What the precondition says of the position array: its two integer conjuncts, read entry by entry.
  `all (0 ≤ I ∧ I < 4)` gives every position in `{0,1,2,3}` (as signed words), and
  `all (I[..., 0] ≠ I[..., 1])` gives the two positions of every group different.
-/
import proofs.«405010_j9294309229010_1_alg».proof.Pre_finite_inputs
import proofs.«405010_j9294309229010_1_alg».proof.Proof.Gen.Pre_finite_inputs
import proofs.«405010_j9294309229010_1_alg».proof.Proof.Spec
import Idealize.ShloMosaic.Lib.ReduceAll
import Idealize.ShloMosaic.Lib.StableHlo.Predicate
import Idealize.ShloMosaic.Lib.Pipeline.Value

noncomputable section

namespace Cert.Sparse24

open Idealize.ShloMosaic Idealize.ShloMosaic.ValueIdx

/-- The reshaped unit slice of the position array at slot `k` reads, at group `g` and column `n`, the
    position `I (g, n, k)`: the slice shifts the last coordinate by `k`, and dropping the unit axis keeps
    the row-major position. -/
private theorem read_slot (I : IVec Cert.Pre_finite_inputs.S2048x8192x2 32) (k : ℕ) (c : Fin 2) (hkc : c.val = k)
    (hs : Cert.Pre_finite_inputs.S2048x8192x2.Slices ![0, 0, k] Cert.Pre_finite_inputs.S2048x8192x1)
    (hc : Cert.Pre_finite_inputs.S2048x8192x1.ShapeCasts Cert.Pre_finite_inputs.S2048x8192)
    (g : Fin 2048) (n : Fin 8192) :
    shapeCast Cert.Pre_finite_inputs.S2048x8192
        (extractStridedSlice Cert.Pre_finite_inputs.S2048x8192x1 ![0, 0, k] I hs) hc (ix2 g n)
      = I (ix3 g n c) := by
  refine (shapeCast_apply _ hc (ix2 g n) (ix3 g n (0 : Fin 1)) ?_).trans ?_
  · rw [Shape.rowMajor_val_three, Shape.rowMajor_val_two]
    show (g.val * 8192 + n.val) * 1 + 0 = g.val * 8192 + n.val
    omega
  · refine extractStridedSlice_apply _ I hs _ _ (fun a => ?_)
    match a with
    | ⟨0, _⟩ => show g.val = 0 + g.val; omega
    | ⟨1, _⟩ => show n.val = 0 + n.val; omega
    | ⟨2, _⟩ => show c.val = k + 0; omega

theorem admissible_of_pre {F : FTy → Type} [FloatOps F]
    (A : FVec F Cert.Pre_finite_inputs.S256x8192 .f32) (Q : IVec Cert.Pre_finite_inputs.S4096x8192 32)
    (I : IVec Cert.Pre_finite_inputs.S2048x8192x2 32) (S : FVec F Cert.Pre_finite_inputs.S64x8192 .f32)
    (h : Cert.Pre_finite_inputs.fn (F := F) A Q I S = fun _ => 1#1) : Admissible I := by
  have h0 := congrFun h ValueIdx.ix0
  dsimp only [Cert.Pre_finite_inputs.fn, Cert.Pre_finite_inputs.fn_part1] at h0
  haveI : Subsingleton Cert.Pre_finite_inputs.S_.Idx := ⟨fun a b => funext fun d => d.elim0⟩
  -- the outer conjunctions: the float conjuncts are dropped, the two integer ones kept
  obtain ⟨h15, h21⟩ := IntOp.andi_eq_one.1 h0
  obtain ⟨_, h14⟩ := IntOp.andi_eq_one.1 h15
  -- each `all` gives its mask at every index
  have hrange := Host.reduce_andi_all _ _ _ _ _ h14
  have hne := Host.reduce_andi_all _ _ _ _ _ h21
  refine ⟨fun i => ?_, fun g n => ?_⟩
  · obtain ⟨hge, hlt⟩ := IntOp.andi_eq_one.1 (hrange i)
    have hge' := IntOp.cmpi_sge.1 hge
    have hlt' := IntOp.cmpi_slt.1 hlt
    change (0#32 : BitVec 32).toInt ≤ (I i).toInt at hge'
    change (I i).toInt < (4#32 : BitVec 32).toInt at hlt'
    rw [show (0#32 : BitVec 32).toInt = 0 from by decide] at hge'
    rw [show (4#32 : BitVec 32).toInt = 4 from by decide] at hlt'
    exact ⟨hge', hlt'⟩
  · have hgn := IntOp.cmpi_ne.1 (hne (ix2 g n))
    rw [read_slot I 0 (0 : Fin 2) rfl, read_slot I 1 (1 : Fin 2) rfl] at hgn
    exact hgn

end Cert.Sparse24

end
-- ==== Proof.lean ====
/-
  A 2:4-sparse, group-quantised int4 matrix product: `A · W` with `A` 256×8192 and the 8192×8192 weight
  matrix `W` kept compressed — per group of four rows and per column two 4-bit values, their two positions
  in the group, and one scale per 128 rows.

  The kernel walks 8 column tiles × 8 row tiles; at each step it rebuilds a 1024×1024 tile of `W` by
  selecting, for each of the four positions of a group, the kept value whose position word names it
  (summing the two selections), scales it, and accumulates `A_slab · W_tile` into a scratch block that a
  column tile's last step writes out. The reference scatters the kept values into zero groups of four at the
  named positions, scales, and multiplies once.

  Where the two position words of a group differ and lie in `{0,1,2,3}` the two ways of building `W` agree
  entry by entry: a position named by one word gets that value (plus zero), a position named by none gets zero;
  the scale factors out of a slot because `0 · s = 0`. With equal position words they would not (a sum of both
  values against the later one), and a negative word is wrapped by the reference but matched by no kernel
  position: the precondition's two integer conjuncts are exactly this domain. The products then agree because a
  sum over 8192 rows is the sum over the eight row tiles of the tiles' sums, in any order, over the extended
  reals; a change of float format is the identity there, so the kernel's bf16 operands change nothing.

  The three frames are the generated ones; the ideal pass rewrote nothing, so `preserves` is trivial; the value
  claim sets the kernel's run (Proof/KernelValue.lean) beside the reference's generated run read stage by
  stage (Proof/RefResult.lean), both at the specification `Cert.Sparse24.G` (Proof/Spec.lean) of the arguments.
-/
import proofs.«405010_j9294309229010_1_alg».proof.Defs
import proofs.«405010_j9294309229010_1_alg».proof.Proof.Gen.Kernel
import proofs.«405010_j9294309229010_1_alg».proof.Proof.Gen.Kernel.Skeleton
import proofs.«405010_j9294309229010_1_alg».proof.Proof.Gen.Kernel.Launch
import proofs.«405010_j9294309229010_1_alg».proof.Proof.Gen.Kernel.Points
import proofs.«405010_j9294309229010_1_alg».proof.Proof.Gen.Kernel.Frame
import proofs.«405010_j9294309229010_1_alg».proof.Proof.Gen.KernelIdeal
import proofs.«405010_j9294309229010_1_alg».proof.Proof.Gen.KernelIdeal.Skeleton
import proofs.«405010_j9294309229010_1_alg».proof.Proof.Gen.KernelIdeal.Launch
import proofs.«405010_j9294309229010_1_alg».proof.Proof.Gen.KernelIdeal.Points
import proofs.«405010_j9294309229010_1_alg».proof.Proof.Gen.KernelIdeal.Frame
import proofs.«405010_j9294309229010_1_alg».proof.Proof.Gen.ReferenceIdeal
import proofs.«405010_j9294309229010_1_alg».proof.Proof.Gen.Pre_finite_inputs
import proofs.«405010_j9294309229010_1_alg».proof.Proof.Gen.KernelIdeal.Value
import proofs.«405010_j9294309229010_1_alg».proof.Proof.Gen.ReferenceIdeal.Run
import proofs.«405010_j9294309229010_1_alg».proof.Proof.Gen.ReferenceIdeal.Read
import proofs.«405010_j9294309229010_1_alg».proof.Proof.KernelValue
import proofs.«405010_j9294309229010_1_alg».proof.Proof.RefResult
import proofs.«405010_j9294309229010_1_alg».proof.Proof.PreDomain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification of the (agreeing) arguments: the kernel's by its
    accumulation over the row tiles, the reference's by its stages, the position array admissible by the
    precondition. -/
theorem algebraic : Cert.algebraic_KernelIdeal_ReferenceIdeal := by
  intro m ρ m' ρ' hpre hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  have hI : Cert.Sparse24.Admissible (m ((c.tc : Thread Cert.KernelIdeal.nD Cert.KernelIdeal.τ).loc Cert.KernelIdeal.main_arg2)) :=
    Cert.Sparse24.admissible_of_pre _ _ _ _ (hpre c)
  exact (Cert.ReferenceIdeal.Read.val_main_v39_eq _ _ _ _).trans (Cert.ReferenceIdeal.RefValue.result_eq _ _ _ _ hI)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
